-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S256x64 : Shape := ⟨2, ![256, 64]⟩
abbrev S256 : Shape := ⟨1, ![256]⟩
abbrev S256x256 : Shape := ⟨2, ![256, 256]⟩
abbrev S64x256 : Shape := ⟨2, ![64, 256]⟩
abbrev S64 : Shape := ⟨1, ![64]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S64x256 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_v33

def fn {F : FTy → Type} [FloatOps F] (main_arg0 : FVec F S100000x32 .f32) (main_arg1 : FVec F S1600000 .f32) (main_arg2 : FVec F S256x64 .f32) (main_arg3 : FVec F S256 .f32) (main_arg4 : FVec F S256x256 .f32) (main_arg5 : FVec F S256 .f32) (main_arg6 : FVec F S64x256 .f32) (main_arg7 : FVec F S64 .f32) (main_arg8 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S100000x32 : Shape := ⟨2, ![100000, 32]⟩
abbrev S1600000 : Shape := ⟨1, ![1600000]⟩
abbrev S256x64 : Shape := ⟨2, ![256, 64]⟩
abbrev S256 : Shape := ⟨1, ![256]⟩
abbrev S256x256 : Shape := ⟨2, ![256, 256]⟩
abbrev S64x256 : Shape := ⟨2, ![64, 256]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S256x32 : Shape := ⟨2, ![256, 32]⟩
abbrev S32x256 : Shape := ⟨2, ![32, 256]⟩
abbrev S1x256 : Shape := ⟨2, ![1, 256]⟩
abbrev S1x64 : Shape := ⟨2, ![1, 64]⟩
abbrev S100000x64 : Shape := ⟨2, ![100000, 64]⟩
abbrev S2000x32 : Shape := ⟨2, ![2000, 32]⟩
abbrev S2000x64 : Shape := ⟨2, ![2000, 64]⟩
abbrev S2000x256 : Shape := ⟨2, ![2000, 256]⟩

abbrev nBuf : Space → Nat
  | .hbm => 43
  | .vmem => 13
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x1, .f32⟩
  | .hbm, ⟨23, _⟩ => ⟨S1600000x32, .f32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S256x32, .f32⟩
  | .hbm, ⟨30, _⟩ => ⟨S32x256, .f32⟩
  | .hbm, ⟨31, _⟩ => ⟨S32x256, .bf16⟩
  | .hbm, ⟨32, _⟩ => ⟨S256x32, .f32⟩
  | .hbm, ⟨33, _⟩ => ⟨S32x256, .f32⟩
  | .hbm, ⟨34, _⟩ => ⟨S32x256, .bf16⟩
  | .hbm, ⟨35, _⟩ => ⟨S256x256, .f32⟩
  | .hbm, ⟨36, _⟩ => ⟨S256x256, .bf16⟩
  | .hbm, ⟨37, _⟩ => ⟨S256x64, .f32⟩
  | .hbm, ⟨38, _⟩ => ⟨S256x64, .bf16⟩
  | .hbm, ⟨39, _⟩ => ⟨S1x256, .f32⟩
  | .hbm, ⟨40, _⟩ => ⟨S1x256, .f32⟩
  | .hbm, ⟨41, _⟩ => ⟨S1x64, .f32⟩
  | .hbm, ⟨42, _⟩ => ⟨S100000x64, .f32⟩
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S32x256, .bf16⟩
  | .local _ .vmem, ⟨5, _⟩ => ⟨S32x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x64, .bf16⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S256x64_S256x32_0_0 : S256x64.Slices ![0, 0] S256x32
  transposes_S256x32_S32x256_1_0 : S256x32.Transposes [1, 0] S32x256
  bitsLt_bf16_f32 : FTy.bits .bf16 < FTy.bits .f32
  slices_S256x64_S256x32_0_32 : S256x64.Slices ![0, 32] S256x32
  transposes_S256x256_S256x256_1_0 : S256x256.Transposes [1, 0] S256x256
  transposes_S64x256_S256x64_1_0 : S64x256.Transposes [1, 0] S256x64
  shapeCasts_S256_S1x256 : S256.ShapeCasts S1x256
  shapeCasts_S64_S1x64 : S64.ShapeCasts S1x64
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x32_S32x256_S2000x256_1_0_0_1_n_n_wf : DotDims.WF S2000x32 S32x256 S2000x256 [1] [0] [0] [1] [] []
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .bf16 = 32 ∨ (Rect.block (s := S32x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .bf16 = 32 ∨ (Rect.block (s := S32x256) S32x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .bf16 = 32 ∨ (Rect.block (s := S256x64) S256x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x32 : Shape := ⟨2, ![100000, 32]⟩
abbrev S1600000 : Shape := ⟨1, ![1600000]⟩
abbrev S256x64 : Shape := ⟨2, ![256, 64]⟩
abbrev S256 : Shape := ⟨1, ![256]⟩
abbrev S256x256 : Shape := ⟨2, ![256, 256]⟩
abbrev S64x256 : Shape := ⟨2, ![64, 256]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S100000x256 : Shape := ⟨2, ![100000, 256]⟩
abbrev S1x256 : Shape := ⟨2, ![1, 256]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x1, .f32⟩
  | .hbm, ⟨23, _⟩ => ⟨S1600000x32, .f32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S100000x64, .f32⟩
  | .hbm, ⟨30, _⟩ => ⟨S64x256, .f32⟩
  | .hbm, ⟨31, _⟩ => ⟨S100000x256, .f32⟩
  | .hbm, ⟨32, _⟩ => ⟨S1x256, .f32⟩
  | .hbm, ⟨33, _⟩ => ⟨S100000x256, .f32⟩
  | .hbm, ⟨34, _⟩ => ⟨S100000x256, .f32⟩
  | .hbm, ⟨35, _⟩ => ⟨S_, .f32⟩
  | .hbm, ⟨36, _⟩ => ⟨S100000x256, .f32⟩
  | .hbm, ⟨37, _⟩ => ⟨S100000x256, .i1⟩
  | .hbm, ⟨38, _⟩ => ⟨S_, .f32⟩
  | .hbm, ⟨39, _⟩ => ⟨S100000x256, .f32⟩
  | .hbm, ⟨40, _⟩ => ⟨S100000x256, .i1⟩
  | .hbm, ⟨41, _⟩ => ⟨S_, .f32⟩
  | .hbm, ⟨42, _⟩ => ⟨S_, .f32⟩
  | .hbm, ⟨43, _⟩ => ⟨S100000x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S100000x256, .f32⟩
  | .hbm, ⟨50, _⟩ => ⟨S256x256, .f32⟩
  | .hbm, ⟨51, _⟩ => ⟨S100000x256, .f32⟩
  | .hbm, ⟨52, _⟩ => ⟨S1x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .i1⟩
  | .hbm, ⟨58, _⟩ => ⟨S_, .f32⟩
  | .hbm, ⟨59, _⟩ => ⟨S100000x256, .f32⟩
  | .hbm, ⟨60, _⟩ => ⟨S100000x256, .i1⟩
  | .hbm, ⟨61, _⟩ => ⟨S_, .f32⟩
  | .hbm, ⟨62, _⟩ => ⟨S_, .f32⟩
  | .hbm, ⟨63, _⟩ => ⟨S100000x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S256x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v4 : Ref sig .tc := ⟨.hbm, 44, rfl⟩
abbrev main_call0_v5 : Ref sig .tc := ⟨.hbm, 45, rfl⟩
abbrev main_call0_cst_2 : Ref sig .tc := ⟨.hbm, 46, rfl⟩
abbrev main_call0_v6 : Ref sig .tc := ⟨.hbm, 47, rfl⟩
abbrev main_call0_v7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_cst_1 : Ref sig .tc := ⟨.hbm, 61, rfl⟩
abbrev main_call1_call0_v0 : Ref sig .tc := ⟨.hbm, 62, rfl⟩
abbrev main_call1_call0_v1 : Ref sig .tc := ⟨.hbm, 63, rfl⟩
abbrev main_call1_v4 : Ref sig .tc := ⟨.hbm, 64, rfl⟩
abbrev main_call1_v5 : Ref sig .tc := ⟨.hbm, 65, rfl⟩
abbrev main_call1_cst_2 : Ref sig .tc := ⟨.hbm, 66, rfl⟩
abbrev main_call1_v6 : Ref sig .tc := ⟨.hbm, 67, rfl⟩
abbrev main_call1_v7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  concatenates_S100000x32_S100000x32_S100000x64_d1 : Shape.Concatenates [S100000x32, S100000x32] S100000x64 1
  transposes_S256x64_S64x256_1_0 : S256x64.Transposes [1, 0] S64x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x256_S256x256_1_0 : S256x256.Transposes [1, 0] S256x256
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KerHost.lean ====
/-
  What the kernel's region finds in the arrays its windows stage: the host operations before the launch compute
  the aggregated messages (the same gather, scale and scatter-add as the reference), split the first layer's
  weights into the halves that multiply a node's own row and its aggregated row, transpose every weight matrix
  to [in, out], and lay each bias out as a one-row matrix.
-/
import proofs.«122095_j23802708755058_1_alg».proof.Proof.Gen.KernelIdeal.Frame
import Idealize.ShloMosaic.Lib.StableHlo.Run

noncomputable section

namespace Cert.KerSide

open Cert.KernelIdeal Cert.KernelIdeal.Gen Idealize.ShloMosaic Idealize.ShloMosaic.TcCoe Idealize.SL.Sem Idealize.ShloMosaic.StableHlo

variable {F : FTy → Type} [FloatOps F]

/-- Aggregated messages, as the kernel's host operations compute them: row `d` is the sum over the edges with target
    `d` of the edge's weight times the source node's row. -/
def msgK (feat : (⟨S100000x32, .f32⟩ : BufTy).Contents (Elt F)) (ew : (⟨S1600000, .f32⟩ : BufTy).Contents (Elt F))
    (ei : (⟨S2x1600000, .i32⟩ : BufTy).Contents (Elt F)) : (⟨S100000x32, .f32⟩ : BufTy).Contents (Elt F) :=
  let v1 : (⟨S1600000, .i32⟩ : BufTy).Contents (Elt F) :=
    shapeCast S1600000 (extractStridedSlice S1x1600000 ![0, 0] ei slices_S2x1600000_S1x1600000_0_0) shapeCasts_S1x1600000_S1600000
  let v3 : (⟨S1600000, .i32⟩ : BufTy).Contents (Elt F) :=
    shapeCast S1600000 (extractStridedSlice S1x1600000 ![1, 0] ei slices_S2x1600000_S1x1600000_1_0) shapeCasts_S1x1600000_S1600000
  let v4 : (⟨S1600000, .i32⟩ : BufTy).Contents (Elt F) := broadcastInDim S1600000 ![] bcast_S_S1600000 (constantI S_ 32 0#32)
  let v5 : (⟨S1600000, .i1⟩ : BufTy).Contents (Elt F) := cmpi .slt v1 v4
  let v6 : (⟨S1600000, .i32⟩ : BufTy).Contents (Elt F) := broadcastInDim S1600000 ![] bcast_S_S1600000 (constantI S_ 32 100000#32)
  let v7 : (⟨S1600000, .i32⟩ : BufTy).Contents (Elt F) := addi v1 v6
  let v8 : (⟨S1600000, .i32⟩ : BufTy).Contents (Elt F) := select v5 v7 v1
  let v9 : (⟨S1600000x1, .i32⟩ : BufTy).Contents (Elt F) := broadcastInDim S1600000x1 ![0] bcast_S1600000_S1600000x1_0 v8
  let v10 : (⟨S1600000x32, .f32⟩ : BufTy).Contents (Elt F) := Host.gather gather_S100000x32_S1600000x1_S1600000x32_1_0_n_n_0_1_132 feat v9
  let v11 : (⟨S1600000x1, .f32⟩ : BufTy).Contents (Elt F) := broadcastInDim S1600000x1 ![0] bcast_S1600000_S1600000x1_0 ew
  let v12 : (⟨S1600000x32, .f32⟩ : BufTy).Contents (Elt F) := broadcastInDim S1600000x32 ![0, 1] bcast_S1600000x1_S1600000x32_0_1 v11
  let v13 : (⟨S1600000x32, .f32⟩ : BufTy).Contents (Elt F) := mulf v10 v12
  let v14 : (⟨S100000x32, .f32⟩ : BufTy).Contents (Elt F) := broadcastInDim S100000x32 ![] bcast_S_S100000x32 (constant S_ .f32 0x00000000#32)
  let v15 : (⟨S1600000x1, .i32⟩ : BufTy).Contents (Elt F) := broadcastInDim S1600000x1 ![0] bcast_S1600000_S1600000x1_0 v3
  Host.scatterAdd scatter_S100000x32_S1600000x1_S1600000x32_1_0_0_1 v14 v15 v13

variable (m : (ℓ : Loc nD τ sig) → Buf (Elt F) ℓ)

attribute [local irreducible] Host.gather Host.scatterAdd in
/-- The second window's array holds the aggregated messages of the arguments. -/
theorem V_msg (c : Dev nD) : (V m c main_v16 : (⟨S100000x32, .f32⟩ : BufTy).Contents (Elt F))
    = msgK (m ((c : Thread nD τ).loc main_arg0)) (m ((c : Thread nD τ).loc main_arg1)) (m ((c : Thread nD τ).loc main_arg8)) := by
  unfold msgK
  dsimp only [Gen.V, Gen.hostOps0]
  after_results_simp
  rfl

/-- The first layer's weights for a node's own row: columns 0–31 of the stored matrix, transposed. -/
theorem V_winA (c : Dev nD) : (V m c main_v19 : (⟨S32x256, .bf16⟩ : BufTy).Contents (Elt F))
    = truncf .bf16 (transpose S32x256 [1, 0] (extractStridedSlice S256x32 ![0, 0] (m ((c : Thread nD τ).loc main_arg2)) slices_S256x64_S256x32_0_0) transposes_S256x32_S32x256_1_0) bitsLt_bf16_f32 := by
  dsimp only [Gen.V, Gen.hostOps0]; after_results

/-- The first layer's weights for the aggregated row: columns 32–63 of the stored matrix, transposed. -/
theorem V_winB (c : Dev nD) : (V m c main_v22 : (⟨S32x256, .bf16⟩ : BufTy).Contents (Elt F))
    = truncf .bf16 (transpose S32x256 [1, 0] (extractStridedSlice S256x32 ![0, 32] (m ((c : Thread nD τ).loc main_arg2)) slices_S256x64_S256x32_0_32) transposes_S256x32_S32x256_1_0) bitsLt_bf16_f32 := by
  dsimp only [Gen.V, Gen.hostOps0]; after_results

/-- The first layer's bias as a one-row matrix. -/
theorem V_bin (c : Dev nD) : (V m c main_v27 : (⟨S1x256, .f32⟩ : BufTy).Contents (Elt F))
    = shapeCast S1x256 (m ((c : Thread nD τ).loc main_arg3)) shapeCasts_S256_S1x256 := by
  dsimp only [Gen.V, Gen.hostOps0]; after_results; rfl

/-- The hidden layer's weights, transposed. -/
theorem V_wh (c : Dev nD) : (V m c main_v24 : (⟨S256x256, .bf16⟩ : BufTy).Contents (Elt F))
    = truncf .bf16 (transpose S256x256 [1, 0] (m ((c : Thread nD τ).loc main_arg4)) transposes_S256x256_S256x256_1_0) bitsLt_bf16_f32 := by
  dsimp only [Gen.V, Gen.hostOps0]; after_results

/-- The hidden layer's bias as a one-row matrix. -/
theorem V_bh (c : Dev nD) : (V m c main_v28 : (⟨S1x256, .f32⟩ : BufTy).Contents (Elt F))
    = shapeCast S1x256 (m ((c : Thread nD τ).loc main_arg5)) shapeCasts_S256_S1x256 := by
  dsimp only [Gen.V, Gen.hostOps0]; after_results; rfl

/-- The output layer's weights, transposed. -/
theorem V_wout (c : Dev nD) : (V m c main_v26 : (⟨S256x64, .bf16⟩ : BufTy).Contents (Elt F))
    = truncf .bf16 (transpose S256x64 [1, 0] (m ((c : Thread nD τ).loc main_arg6)) transposes_S64x256_S256x64_1_0) bitsLt_bf16_f32 := by
  dsimp only [Gen.V, Gen.hostOps0]; after_results

/-- The output layer's bias as a one-row matrix. -/
theorem V_bout (c : Dev nD) : (V m c main_v29 : (⟨S1x64, .f32⟩ : BufTy).Contents (Elt F))
    = shapeCast S1x64 (m ((c : Thread nD τ).loc main_arg7)) shapeCasts_S64_S1x64 := by
  dsimp only [Gen.V, Gen.hostOps0]; after_results; rfl

end Cert.KerSide

end
-- ==== Proof.LibDenseRows.lean ====
/-
  Dense layers and ELU read one row at a time, at the ideal values.

  A dense layer `X · Wᵀ + b` (weights stored [out, in]) has at row `n`, column `j` the value
  `∑ c, X[n, c] · W[j, c] + b[j]`: a function of row `n` of `X` alone.  The host computes it as a
  `dot_general` with the transposed weights plus the bias broadcast along the rows; a kernel as a matrix
  product into a zero accumulator with weights already laid out [in, out] plus a one-row bias broadcast
  down the rows.  Both are read here at an index, for ANY number of rows, so the same lemma serves the whole
  array and a block of it.  ELU is `x` where `x > 0` and `eˣ − 1` elsewhere; the host spells the second branch
  `1 · expm1 (x where not x > 0, else 0)`, which is the same number because that branch is only taken where
  `x > 0` fails.  Only `0 + x = x`, `1 · x = x`, and commutativity and associativity of `+` are used: all of
  it holds at the infinities.
-/
import Idealize.ShloMosaic.Lib.StackMember
import Idealize.ShloMosaic.Lib.ValueLayout

noncomputable section

open scoped BigOperators

namespace Cert.DenseRows

open Idealize.ShloMosaic Idealize.ShloMosaic.ValueIdx Idealize.ShloMosaic.StackMember

/-! ## One row -/

/-- A dense layer on one row `x`: entry `j` is `∑ c, x c · W j c + b j`. -/
def lin {k n : Nat} (W : Fin n → Fin k → EReal) (b : Fin n → EReal) (x : Fin k → EReal) (j : Fin n) : EReal :=
  (∑ c : Fin k, x c * W j c) + b j

/-- ELU on one extended real: `x` where `x > 0`, else `eˣ − 1` (the comparison and the literals as both programs
    print them: the words of 0.0 and 1.0). -/
def elu (x : Ideal .f32) : Ideal .f32 :=
  Scalar.select (FloatOps.cmpf .ogt x (Scalar.ofBits .f32 0x00000000#32)) x
    (FloatOps.subf (FloatOps.exp x) (Scalar.ofBits .f32 0x3F800000#32))

/-- The word of 1.0 is the number one. -/
theorem one_f32 : Ideal.ofBits .f32 0x3F800000#32 = 1 := by
  simp [Ideal.ofBits, Ideal.ieee, -EReal.coe_mul]; norm_num

/-- The host's spelling of ELU on one extended real. -/
def eluHost (x : Ideal .f32) : Ideal .f32 :=
  Scalar.select (FloatOps.cmpf .ogt x (Scalar.ofBits .f32 0x00000000#32)) x
    (FloatOps.mulf (Scalar.ofBits (F := Ideal) .f32 0x3F800000#32)
      (FloatOps.hostUnary .expm1
        (Scalar.select (FloatOps.cmpf .ogt x (Scalar.ofBits .f32 0x00000000#32)) (Scalar.ofBits (F := Ideal) .f32 0x00000000#32) x)))

/-- The two spellings are one function: where `x > 0` both are `x`; elsewhere the guarded argument is `x` itself and
    `1 · (eˣ − 1) = eˣ − 1`. -/
theorem eluHost_eq (x : Ideal .f32) : eluHost x = elu x := by
  unfold eluHost elu
  by_cases h : FloatOps.cmpf (F := Ideal) .ogt x (Scalar.ofBits .f32 0x00000000#32) = 1#1
  · rw [h, select_one, select_one]
  · rw [eq_zero_of_ne_one h, select_zero, select_zero, select_zero]
    show Ideal.ofBits .f32 0x3F800000#32 * (Ideal.exp x - 1) = Ideal.exp x - Ideal.ofBits .f32 0x3F800000#32
    rw [one_f32, one_mul]

/-- A kernel's ELU (compare with the splat of 0.0, `exp`, subtract the splat of 1.0, select) at an index. -/
theorem elu_kernel_apply {s : Shape} (x : FVec Ideal s .f32) (i : s.Idx) :
    select (cmpf .ogt x (broadcast s (Scalar.ofBits .f32 0x00000000#32))) x
      (subf (exp x) (broadcast s (Scalar.ofBits .f32 0x3F800000#32))) i = elu (x i) := rfl

/-! ## Two rows side by side -/

/-- The row `f` followed by the row `g`. -/
def cat (f g : Fin 32 → EReal) (c : Fin 64) : EReal :=
  if h : c.val < 32 then f ⟨c.val, h⟩ else g ⟨c.val - 32, by have := c.isLt; omega⟩

/-- A sum over the 64 columns of two rows side by side splits into the two rows' sums. -/
theorem sum_cat (f g : Fin 32 → EReal) (w : Fin 64 → EReal) :
    ∑ c : Fin 64, cat f g c * w c
      = (∑ a : Fin 32, f a * w ⟨a.val, by have := a.isLt; omega⟩) + ∑ a : Fin 32, g a * w ⟨32 + a.val, by have := a.isLt; omega⟩ := by
  refine (Fin.sum_univ_add (M := EReal) (a := 32) (b := 32) (fun c : Fin (32 + 32) => cat f g c * w c)).trans ?_
  congr 1

/-! ## A dense layer read at an index -/

/-- A kernel's product into a zero accumulator, weights laid out [in, out], read at (n, j). -/
theorem matmul_plain_apply {N K M : Nat} {φ₁ φ₂ : FTy} (prec : Option ContractPrecision)
    (X : FVec Ideal ⟨2, ![N, K]⟩ φ₁) (Wt : FVec Ideal ⟨2, ![K, M]⟩ φ₂) (n : Fin N) (j : Fin M) :
    matmul (DotDims.plain N K M) prec X Wt (constant ⟨2, ![N, M]⟩ .f32 0x00000000#32) (ix2 n j)
      = ∑ c : Fin K, X (ix2 n c) * Wt (ix2 c j) :=
  (congrFun (matmul_zero_eq_dotGeneral (DotDims.plain N K M) prec X Wt) (ix2 n j)).trans
    (dotGeneral_plain_apply prec X Wt n j)

/-- A one-row matrix broadcast down the rows (a kernel's `vector.broadcast`), read at (n, j). -/
theorem broadcastTo_oneRow_apply {N M : Nat} {α : Type} (y : (⟨2, ![1, M]⟩ : Shape).Idx → α)
    (hb : (⟨2, ![1, M]⟩ : Shape).Broadcasts ⟨2, ![N, M]⟩) (n : Fin N) (j : Fin M) :
    broadcastTo ⟨2, ![N, M]⟩ y hb (ix2 n j) = y (ix2 (0 : Fin 1) j) := by
  refine broadcastTo_apply y hb (ix2 n j) (ix2 (0 : Fin 1) j) ?_
  intro a
  match a with
  | ⟨0, _⟩ => show (0 : ℕ) = if (1 : ℕ) = 1 then 0 else _; simp
  | ⟨1, _⟩ =>
    show j.val = if M = 1 then 0 else j.val
    split
    · rename_i h; have := j.isLt; omega
    · rfl

/-- A kernel's dense layer (weights [in, out], one-row bias) at (n, j). -/
theorem kernelDense_apply {N K M : Nat} {φ₁ φ₂ : FTy} (prec : Option ContractPrecision)
    (X : FVec Ideal ⟨2, ![N, K]⟩ φ₁) (Wt : FVec Ideal ⟨2, ![K, M]⟩ φ₂) (b2 : FVec Ideal ⟨2, ![1, M]⟩ .f32)
    (hb : (⟨2, ![1, M]⟩ : Shape).Broadcasts ⟨2, ![N, M]⟩) (n : Fin N) (j : Fin M) :
    addf (matmul (DotDims.plain N K M) prec X Wt (constant ⟨2, ![N, M]⟩ .f32 0x00000000#32))
        (broadcastTo ⟨2, ![N, M]⟩ b2 hb) (ix2 n j)
      = (∑ c : Fin K, X (ix2 n c) * Wt (ix2 c j)) + b2 (ix2 (0 : Fin 1) j) := by
  rw [addf_apply, matmul_plain_apply, broadcastTo_oneRow_apply]

/-- The host's transposed weights at (c, j) are the stored weights at (j, c). -/
theorem transpose10_apply {M K : Nat} {α : Type} (W : (⟨2, ![M, K]⟩ : Shape).Idx → α)
    (hT : (⟨2, ![M, K]⟩ : Shape).Transposes [1, 0] ⟨2, ![K, M]⟩) (c : Fin K) (j : Fin M) :
    transpose ⟨2, ![K, M]⟩ [1, 0] W hT (ix2 c j) = W (ix2 j c) := by
  refine transpose_apply [1, 0] W hT (ix2 c j) (ix2 j c) ?_
  intro b
  match b with
  | ⟨0, _⟩ => rfl
  | ⟨1, _⟩ => rfl

/-- A vector laid as a one-row matrix (the host's `broadcast_in_dim` along axis 1), read at (0, j). -/
theorem broadcastInDim_asRow_apply {M : Nat} {α : Type} (b : (⟨1, ![M]⟩ : Shape).Idx → α)
    (h1 : (⟨1, ![M]⟩ : Shape).BroadcastsInDim ⟨2, ![1, M]⟩ ![1]) (j : Fin M) :
    broadcastInDim ⟨2, ![1, M]⟩ ![1] h1 b (ix2 (0 : Fin 1) j) = b (ix1 j) := by
  refine broadcastInDim_apply ![1] h1 b (ix2 (0 : Fin 1) j) (ix1 j) ?_
  intro a
  match a with
  | ⟨0, _⟩ =>
    show j.val = if M = 1 then 0 else j.val
    split
    · rename_i h; have := j.isLt; omega
    · rfl

/-- The host's dense layer (`dot_general` with the transposed weights, bias broadcast along the rows) at (n, j). -/
theorem hostDense_apply {N K M : Nat} (prec : Option ContractPrecision)
    (X : FVec Ideal ⟨2, ![N, K]⟩ .f32) (W : FVec Ideal ⟨2, ![M, K]⟩ .f32) (b : FVec Ideal ⟨1, ![M]⟩ .f32)
    (hT : (⟨2, ![M, K]⟩ : Shape).Transposes [1, 0] ⟨2, ![K, M]⟩)
    (h1 : (⟨1, ![M]⟩ : Shape).BroadcastsInDim ⟨2, ![1, M]⟩ ![1])
    (h2 : (⟨2, ![1, M]⟩ : Shape).BroadcastsInDim ⟨2, ![N, M]⟩ ![0, 1]) (n : Fin N) (j : Fin M) :
    addf (Host.dotGeneral (DotDims.plain N K M) prec X (transpose ⟨2, ![K, M]⟩ [1, 0] W hT))
        (broadcastInDim ⟨2, ![N, M]⟩ ![0, 1] h2 (broadcastInDim ⟨2, ![1, M]⟩ ![1] h1 b)) (ix2 n j)
      = lin (fun j c => W (ix2 j c)) (fun j => b (ix1 j)) (fun c => X (ix2 n c)) j := by
  rw [addf_apply, dotGeneral_plain_apply, broadcastInDim_oneRow_apply, broadcastInDim_asRow_apply]
  unfold lin
  congr 1
  exact Finset.sum_congr rfl fun c _ => by rw [transpose10_apply]

/-! ## The three layers on one row -/

/-- The network on one row: the input row is `f` followed by `g`; three dense layers with ELU after the first two.
    Weights and biases are the stored arrays, read by coordinates. -/
def mlp (Win : (⟨2, ![256, 64]⟩ : Shape).Idx → EReal) (bin : (⟨1, ![256]⟩ : Shape).Idx → EReal)
    (Wh : (⟨2, ![256, 256]⟩ : Shape).Idx → EReal) (bh : (⟨1, ![256]⟩ : Shape).Idx → EReal)
    (Wout : (⟨2, ![64, 256]⟩ : Shape).Idx → EReal) (bout : (⟨1, ![64]⟩ : Shape).Idx → EReal)
    (f g : Fin 32 → EReal) : Fin 64 → EReal :=
  lin (fun j c => Wout (ix2 j c)) (fun j => bout (ix1 j))
    (fun c => elu (lin (fun j c => Wh (ix2 j c)) (fun j => bh (ix1 j))
      (fun c' => elu (lin (fun j c => Win (ix2 j c)) (fun j => bin (ix1 j)) (cat f g) c')) c))

/-! ## The whole result array -/

/-- The network applied to every node: entry (n, j) of the result is entry j of the three layers on row n of the
    node features followed by row n of the aggregated messages. -/
def rowsMlp (feat msg : (⟨2, ![100000, 32]⟩ : Shape).Idx → EReal)
    (Win : (⟨2, ![256, 64]⟩ : Shape).Idx → EReal) (bin : (⟨1, ![256]⟩ : Shape).Idx → EReal)
    (Wh : (⟨2, ![256, 256]⟩ : Shape).Idx → EReal) (bh : (⟨1, ![256]⟩ : Shape).Idx → EReal)
    (Wout : (⟨2, ![64, 256]⟩ : Shape).Idx → EReal) (bout : (⟨1, ![64]⟩ : Shape).Idx → EReal) :
    (⟨2, ![100000, 64]⟩ : Shape).Idx → EReal :=
  fun i => mlp Win bin Wh bh Wout bout
    (fun a => feat (ix2 (⟨(i 0).val, idx2_lt0 i⟩ : Fin 100000) a))
    (fun a => msg (ix2 (⟨(i 0).val, idx2_lt0 i⟩ : Fin 100000) a))
    (⟨(i 1).val, idx2_lt1 i⟩ : Fin 64)

/-- Read at coordinates. -/
theorem rowsMlp_apply (feat msg : (⟨2, ![100000, 32]⟩ : Shape).Idx → EReal)
    (Win : (⟨2, ![256, 64]⟩ : Shape).Idx → EReal) (bin : (⟨1, ![256]⟩ : Shape).Idx → EReal)
    (Wh : (⟨2, ![256, 256]⟩ : Shape).Idx → EReal) (bh : (⟨1, ![256]⟩ : Shape).Idx → EReal)
    (Wout : (⟨2, ![64, 256]⟩ : Shape).Idx → EReal) (bout : (⟨1, ![64]⟩ : Shape).Idx → EReal) (n : Fin 100000) (j : Fin 64) :
    rowsMlp feat msg Win bin Wh bh Wout bout (ix2 n j)
      = mlp Win bin Wh bh Wout bout (fun a => feat (ix2 n a)) (fun a => msg (ix2 n a)) j := rfl

end Cert.DenseRows

end
-- ==== Proof.KerArrays.lean ====
/-
  The arrays the kernel's windows stage, read one entry at a time in terms of the stored arguments: a transposed
  weight matrix at (c, j) is the stored one at (j, c); the first layer's two halves are its columns 0–31 and
  32–63; a bias laid out as a one-row matrix at (0, j) is the stored bias at j.  The change of float format on the
  weights is the identity on extended reals.
-/
import proofs.«122095_j23802708755058_1_alg».proof.Proof.KerHost
import proofs.«122095_j23802708755058_1_alg».proof.Proof.LibDenseRows

noncomputable section

namespace Cert.KerSide

open Cert.KernelIdeal Cert.KernelIdeal.Gen Idealize.ShloMosaic Idealize.ShloMosaic.TcCoe Idealize.SL.Sem
open Idealize.ShloMosaic.ValueIdx Cert.DenseRows

variable (m : (ℓ : Loc nD τ sig) → Buf (Elt Ideal) ℓ)

/-- A vector reshaped to a one-row matrix, read at (0, j). -/
theorem asRow_apply {M : Nat} {α : Type} (b : (⟨1, ![M]⟩ : Shape).Idx → α)
    (h : (⟨1, ![M]⟩ : Shape).ShapeCasts ⟨2, ![1, M]⟩) (j : Fin M) :
    shapeCast ⟨2, ![1, M]⟩ b h (ix2 (0 : Fin 1) j) = b (ix1 j) := by
  refine (shapeCast_addUnit_apply ![M] b h (ix2 (0 : Fin 1) j)).trans (congrArg b ?_)
  funext a
  match a with
  | ⟨0, _⟩ => rfl

/-- Columns `off …` of a stored [256, 64] matrix, transposed, at (a, c): the stored matrix at (c, off + a). -/
theorem halfT_apply (W : (⟨2, ![256, 64]⟩ : Shape).Idx → EReal) (off : Nat)
    (hS : (⟨2, ![256, 64]⟩ : Shape).Slices ![0, off] ⟨2, ![256, 32]⟩)
    (hT : (⟨2, ![256, 32]⟩ : Shape).Transposes [1, 0] ⟨2, ![32, 256]⟩) (a : Fin 32) (c : Fin 256) (hlt : off + a.val < 64) :
    transpose ⟨2, ![32, 256]⟩ [1, 0] (extractStridedSlice ⟨2, ![256, 32]⟩ ![0, off] W hS) hT (ix2 a c)
      = W (ix2 c (⟨off + a.val, hlt⟩ : Fin 64)) := by
  rw [transpose10_apply]
  refine extractStridedSlice_apply ![0, off] W hS (ix2 c a) (ix2 c (⟨off + a.val, hlt⟩ : Fin 64)) ?_
  intro ax
  match ax with
  | ⟨0, _⟩ => show c.val = 0 + c.val; omega
  | ⟨1, _⟩ => rfl

theorem winA_apply (c : Dev nD) (a : Fin 32) (k : Fin 256) :
    (V m c main_v19 : (⟨S32x256, .bf16⟩ : BufTy).Contents (Elt Ideal)) (ix2 a k)
      = m ((c : Thread nD τ).loc main_arg2) (ix2 k (⟨a.val, by have := a.isLt; omega⟩ : Fin 64)) := by
  rw [V_winA, truncf_apply]
  refine (halfT_apply _ 0 slices_S256x64_S256x32_0_0 transposes_S256x32_S32x256_1_0 a k (by have := a.isLt; omega)).trans ?_
  exact congrArg _ (congrArg (ix2 k) (Fin.ext (by show 0 + a.val = a.val; omega)))

theorem winB_apply (c : Dev nD) (a : Fin 32) (k : Fin 256) :
    (V m c main_v22 : (⟨S32x256, .bf16⟩ : BufTy).Contents (Elt Ideal)) (ix2 a k)
      = m ((c : Thread nD τ).loc main_arg2) (ix2 k (⟨32 + a.val, by have := a.isLt; omega⟩ : Fin 64)) := by
  rw [V_winB, truncf_apply]
  exact halfT_apply _ 32 slices_S256x64_S256x32_0_32 transposes_S256x32_S32x256_1_0 a k (by have := a.isLt; omega)

theorem bin_apply (c : Dev nD) (k : Fin 256) :
    (V m c main_v27 : (⟨S1x256, .f32⟩ : BufTy).Contents (Elt Ideal)) (ix2 (0 : Fin 1) k) = m ((c : Thread nD τ).loc main_arg3) (ix1 k) := by
  rw [V_bin]; exact asRow_apply _ shapeCasts_S256_S1x256 k

theorem wh_apply (c : Dev nD) (a k : Fin 256) :
    (V m c main_v24 : (⟨S256x256, .bf16⟩ : BufTy).Contents (Elt Ideal)) (ix2 a k) = m ((c : Thread nD τ).loc main_arg4) (ix2 k a) := by
  rw [V_wh, truncf_apply]; exact transpose10_apply _ transposes_S256x256_S256x256_1_0 a k

theorem bh_apply (c : Dev nD) (k : Fin 256) :
    (V m c main_v28 : (⟨S1x256, .f32⟩ : BufTy).Contents (Elt Ideal)) (ix2 (0 : Fin 1) k) = m ((c : Thread nD τ).loc main_arg5) (ix1 k) := by
  rw [V_bh]; exact asRow_apply _ shapeCasts_S256_S1x256 k

theorem wout_apply (c : Dev nD) (a : Fin 256) (j : Fin 64) :
    (V m c main_v26 : (⟨S256x64, .bf16⟩ : BufTy).Contents (Elt Ideal)) (ix2 a j) = m ((c : Thread nD τ).loc main_arg6) (ix2 j a) := by
  rw [V_wout, truncf_apply]; exact transpose10_apply _ transposes_S64x256_S256x64_1_0 a j

theorem bout_apply (c : Dev nD) (j : Fin 64) :
    (V m c main_v29 : (⟨S1x64, .f32⟩ : BufTy).Contents (Elt Ideal)) (ix2 (0 : Fin 1) j) = m ((c : Thread nD τ).loc main_arg7) (ix1 j) := by
  rw [V_bout]; exact asRow_apply _ shapeCasts_S64_S1x64 j

end Cert.KerSide

end
-- ==== Proof.KerPayload.lean ====
/-
  The kernel body's arithmetic on one block, read at one entry.  The body computes, for a block of 2000 node rows,
  `h₁ = ELU (x · A + g · B + b₁)`, `h₂ = ELU (h₁ · W₂ + b₂)`, `out = h₂ · W₃ + b₃` with every weight matrix laid out
  [in, out] and every bias a one-row matrix; the changes of float format between the stages are the identity on
  extended reals.  Each stage is named, the body's two payloads are their composition, and each stage read at
  (r, j) is the dense-layer sum over row r.
-/
import proofs.«122095_j23802708755058_1_alg».proof.Proof.Gen.KernelIdeal.Skeleton
import proofs.«122095_j23802708755058_1_alg».proof.Proof.LibDenseRows

noncomputable section

open scoped BigOperators

namespace Cert.KerSide

open Cert.KernelIdeal Cert.KernelIdeal.Gen Idealize.ShloMosaic Idealize.ShloMosaic.ValueIdx Cert.DenseRows

/-- The printed dimension numbers of the three products are the plain ones: rows × contraction by contraction × columns. -/
theorem d1_eq : dot_S2000x32_S32x256_S2000x256_1_0_0_1_n_n = DotDims.plain 2000 32 256 := rfl
theorem d2_eq : dot_S2000x256_S256x256_S2000x256_1_0_0_1_n_n = DotDims.plain 2000 256 256 := rfl
theorem d3_eq : dot_S2000x256_S256x64_S2000x64_1_0_0_1_n_n = DotDims.plain 2000 256 64 := rfl

/-- First layer before its activation: the node rows times their weights plus the aggregated rows times theirs plus the bias. -/
def pre1 (x0 x1 : FVec Ideal S2000x32 .f32) (x2 x3 : FVec Ideal S32x256 .bf16) (x4 : FVec Ideal S1x256 .f32) : FVec Ideal S2000x256 .f32 :=
  addf
    (addf (matmul (φ₁ := .bf16) (φ₂ := .bf16) dot_S2000x32_S32x256_S2000x256_1_0_0_1_n_n none (truncf .bf16 x0 bitsLt_bf16_f32) (shapeCast S32x256 x2 shapeCasts_S32x256_S32x256 : FVec Ideal S32x256 .bf16) (constant S2000x256 .f32 0x00000000#32))
      (matmul (φ₁ := .bf16) (φ₂ := .bf16) dot_S2000x32_S32x256_S2000x256_1_0_0_1_n_n none (truncf .bf16 (shapeCast S2000x32 x1 shapeCasts_S2000x32_S2000x32 : FVec Ideal S2000x32 .f32) bitsLt_bf16_f32) (shapeCast S32x256 x3 shapeCasts_S32x256_S32x256 : FVec Ideal S32x256 .bf16) (constant S2000x256 .f32 0x00000000#32)))
    (broadcastTo S2000x256 (shapeCast S1x256 x4 shapeCasts_S1x256_S1x256 : FVec Ideal S1x256 .f32) broadcasts_S1x256_S2000x256)

/-- The body's ELU on a [2000, 256] value, then its change of float format. -/
def eluK (A : FVec Ideal S2000x256 .f32) : FVec Ideal S2000x256 .bf16 :=
  truncf .bf16 (select (cmpf .ogt A (broadcast S2000x256 (Scalar.ofBits .f32 0x00000000#32))) A
    (subf (exp A) (broadcast S2000x256 (Scalar.ofBits .f32 0x3F800000#32)))) bitsLt_bf16_f32

/-- Hidden layer before its activation. -/
def pre2 (h : FVec Ideal S2000x256 .bf16) (x5 : FVec Ideal S256x256 .bf16) (x6 : FVec Ideal S1x256 .f32) : FVec Ideal S2000x256 .f32 :=
  addf (matmul (φ₁ := .bf16) (φ₂ := .bf16) dot_S2000x256_S256x256_S2000x256_1_0_0_1_n_n none h (shapeCast S256x256 x5 shapeCasts_S256x256_S256x256 : FVec Ideal S256x256 .bf16) (constant S2000x256 .f32 0x00000000#32))
    (broadcastTo S2000x256 (shapeCast S1x256 x6 shapeCasts_S1x256_S1x256 : FVec Ideal S1x256 .f32) broadcasts_S1x256_S2000x256)

/-- The body's first payload is the two activated layers. -/
theorem pay2_eq (x0 x1 : FVec Ideal S2000x32 .f32) (x2 x3 : FVec Ideal S32x256 .bf16) (x4 : FVec Ideal S1x256 .f32)
    (x5 : FVec Ideal S256x256 .bf16) (x6 : FVec Ideal S1x256 .f32) :
    k0_pay2 x0 x1 x2 x3 x4 x5 x6 = eluK (pre2 (eluK (pre1 x0 x1 x2 x3 x4)) x5 x6) := rfl

/-- The format change is the identity and the select is ELU entry by entry. -/
theorem eluK_apply (A : FVec Ideal S2000x256 .f32) (i : S2000x256.Idx) : eluK A i = elu (A i) := rfl

/-- The first layer's pre-activation at (r, c): the two half-row sums and the bias. -/
theorem pre1_apply (x0 x1 : FVec Ideal S2000x32 .f32) (x2 x3 : FVec Ideal S32x256 .bf16) (x4 : FVec Ideal S1x256 .f32)
    (r : Fin 2000) (c : Fin 256) :
    pre1 x0 x1 x2 x3 x4 (ix2 r c)
      = ((∑ a : Fin 32, x0 (ix2 r a) * x2 (ix2 a c)) + ∑ a : Fin 32, x1 (ix2 r a) * x3 (ix2 a c)) + x4 (ix2 (0 : Fin 1) c) := by
  unfold pre1
  simp only [shapeCast_self, d1_eq]
  rw [addf_apply, addf_apply, matmul_plain_apply, matmul_plain_apply, broadcastTo_oneRow_apply]
  rfl

/-- The hidden layer's pre-activation at (r, k). -/
theorem pre2_apply (h : FVec Ideal S2000x256 .bf16) (x5 : FVec Ideal S256x256 .bf16) (x6 : FVec Ideal S1x256 .f32)
    (r : Fin 2000) (k : Fin 256) :
    pre2 h x5 x6 (ix2 r k) = (∑ c : Fin 256, h (ix2 r c) * x5 (ix2 c k)) + x6 (ix2 (0 : Fin 1) k) := by
  unfold pre2
  simp only [shapeCast_self, d2_eq]
  rw [kernelDense_apply]

/-- The body's stored value at (r, j): the output layer on row r of the second activation. -/
theorem pay1_apply (h : FVec Ideal S2000x256 .bf16) (x7 : FVec Ideal S256x64 .bf16) (x8 : FVec Ideal S1x64 .f32)
    (r : Fin 2000) (j : Fin 64) :
    k0_pay1 h x7 x8 (ix2 r j) = (∑ c : Fin 256, h (ix2 r c) * x7 (ix2 c j)) + x8 (ix2 (0 : Fin 1) j) := by
  unfold k0_pay1
  simp only [shapeCast_self, d3_eq]
  rw [kernelDense_apply]

/-- One entry of the block the body stores, when every loaded block is the matching part of the whole arrays (rows
    `n` of the node features and of the aggregated messages; the weights transposed, the first layer's split at
    column 32; the biases as one-row matrices): the three layers on node row `n`.  The only arithmetic is the split
    of the first layer's 64-term sum into its two halves. -/
theorem block_value (x0 x1 : FVec Ideal S2000x32 .f32) (x2 x3 : FVec Ideal S32x256 .bf16) (x4 : FVec Ideal S1x256 .f32)
    (x5 : FVec Ideal S256x256 .bf16) (x6 : FVec Ideal S1x256 .f32) (x7 : FVec Ideal S256x64 .bf16) (x8 : FVec Ideal S1x64 .f32)
    (feat msg : (⟨2, ![100000, 32]⟩ : Shape).Idx → EReal) (Win : (⟨2, ![256, 64]⟩ : Shape).Idx → EReal)
    (bin : (⟨1, ![256]⟩ : Shape).Idx → EReal) (Wh : (⟨2, ![256, 256]⟩ : Shape).Idx → EReal)
    (bh : (⟨1, ![256]⟩ : Shape).Idx → EReal) (Wout : (⟨2, ![64, 256]⟩ : Shape).Idx → EReal)
    (bout : (⟨1, ![64]⟩ : Shape).Idx → EReal) (n : Fin 100000) (r : Fin 2000) (q : Fin 64)
    (h0 : ∀ a : Fin 32, x0 (ix2 r a) = feat (ix2 n a)) (h1 : ∀ a : Fin 32, x1 (ix2 r a) = msg (ix2 n a))
    (h2 : ∀ (a : Fin 32) (c : Fin 256), x2 (ix2 a c) = Win (ix2 c (⟨a.val, by have := a.isLt; omega⟩ : Fin 64)))
    (h3 : ∀ (a : Fin 32) (c : Fin 256), x3 (ix2 a c) = Win (ix2 c (⟨32 + a.val, by have := a.isLt; omega⟩ : Fin 64)))
    (h4 : ∀ c : Fin 256, x4 (ix2 (0 : Fin 1) c) = bin (ix1 c))
    (h5 : ∀ c k : Fin 256, x5 (ix2 c k) = Wh (ix2 k c))
    (h6 : ∀ k : Fin 256, x6 (ix2 (0 : Fin 1) k) = bh (ix1 k))
    (h7 : ∀ (c : Fin 256) (j : Fin 64), x7 (ix2 c j) = Wout (ix2 j c))
    (h8 : ∀ j : Fin 64, x8 (ix2 (0 : Fin 1) j) = bout (ix1 j)) :
    k0_pay1 (F := Ideal) (k0_pay2 (F := Ideal) x0 x1 x2 x3 x4 x5 x6) x7 x8 (ix2 r q)
      = mlp Win bin Wh bh Wout bout (fun a => feat (ix2 n a)) (fun a => msg (ix2 n a)) q := by
  rw [pay1_apply, pay2_eq]
  unfold mlp lin
  beta_reduce
  rw [h8]
  refine congrArg (· + bout (ix1 q)) (Finset.sum_congr rfl fun c _ => ?_)
  rw [h7, eluK_apply, pre2_apply, h6]
  refine congrArg (fun z => elu (z + bh (ix1 c)) * Wout (ix2 q c)) (Finset.sum_congr rfl fun c' _ => ?_)
  rw [h5, eluK_apply, pre1_apply, h4, sum_cat]
  refine congrArg (fun z => elu (z + bin (ix1 c')) * Wh (ix2 c c')) ?_
  congr 1
  · exact Finset.sum_congr rfl fun a _ => by rw [h0, h2]
  · exact Finset.sum_congr rfl fun a _ => by rw [h1, h3]

end Cert.KerSide

end
-- ==== Proof.KerValue.lean ====
/-
  The kernel's result array.  Grid point t handles node rows 2000·t … 2000·t + 1999: its blocks of the node
  features and of the aggregated messages are those rows, every weight and bias block is the whole (resident)
  array, and what it writes back is those rows of the result.  The 50 blocks tile the [100000, 64] result, so after
  the run the array is the network applied to every node row.
-/
import proofs.«122095_j23802708755058_1_alg».proof.Proof.Gen.KernelIdeal.Value
import proofs.«122095_j23802708755058_1_alg».proof.Proof.KerArrays
import proofs.«122095_j23802708755058_1_alg».proof.Proof.KerPayload

set_option maxRecDepth 16384
set_option Elab.async false

noncomputable section

namespace Cert.KerSide

open Cert.KernelIdeal Cert.KernelIdeal.Gen Idealize.ShloMosaic Idealize.ShloMosaic.TcCoe Idealize.SL.Sem
open Idealize.ShloMosaic.Pipeline (Dat)
open Idealize.ShloMosaic.ValueIdx Cert.DenseRows

variable (m : (ℓ : Loc nD τ sig) → Buf (Elt Ideal) ℓ) (ρ : Dev nD → PrngReg)

theorem hz : (![0, 0] : Fin 2 → Nat) = fun _ => 0 := funext fun a => by fin_cases a <;> rfl

/-! ## The index maps over the 50 grid points -/

/-- The printed index maps, decided once over the grid: the two row-blocked inputs move with the output along the
    rows, every weight and bias window stays at block (0, 0), and the output's row-block index is below 50. -/
theorem idx_facts : ∀ t : Fin cfg0.N,
    (win0_0.index t (0 : Fin 2) = win0_9.index t (0 : Fin 2) ∧ win0_0.index t (1 : Fin 2) = 0)
    ∧ (win0_1.index t (0 : Fin 2) = win0_9.index t (0 : Fin 2) ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (1 : Fin 2) = 0 ∧ win0_9.index t (0 : Fin 2) ≤ 49) :=
  (by decide +kernel : ∀ t : Fin grid0.N, _)

/-- The node features' window moves with the output along the rows. -/
theorem idx_feat (t : Fin cfg0.N) : win0_0.index t (0 : Fin 2) = win0_9.index t (0 : Fin 2) ∧ win0_0.index t (1 : Fin 2) = 0 :=
  (idx_facts t).1
/-- So does the aggregated messages' window. -/
theorem idx_msg (t : Fin cfg0.N) : win0_1.index t (0 : Fin 2) = win0_9.index t (0 : Fin 2) ∧ win0_1.index t (1 : Fin 2) = 0 :=
  (idx_facts t).2.1
/-- Every weight and bias window stays at block (0, 0). -/
theorem idx_winA (t : Fin cfg0.N) : win0_2.index t (0 : Fin 2) = 0 ∧ win0_2.index t (1 : Fin 2) = 0 := (idx_facts t).2.2.1
theorem idx_winB (t : Fin cfg0.N) : win0_3.index t (0 : Fin 2) = 0 ∧ win0_3.index t (1 : Fin 2) = 0 := (idx_facts t).2.2.2.1
theorem idx_bin (t : Fin cfg0.N) : win0_4.index t (0 : Fin 2) = 0 ∧ win0_4.index t (1 : Fin 2) = 0 := (idx_facts t).2.2.2.2.1
theorem idx_wh (t : Fin cfg0.N) : win0_5.index t (0 : Fin 2) = 0 ∧ win0_5.index t (1 : Fin 2) = 0 := (idx_facts t).2.2.2.2.2.1
theorem idx_bh (t : Fin cfg0.N) : win0_6.index t (0 : Fin 2) = 0 ∧ win0_6.index t (1 : Fin 2) = 0 := (idx_facts t).2.2.2.2.2.2.1
theorem idx_wout (t : Fin cfg0.N) : win0_7.index t (0 : Fin 2) = 0 ∧ win0_7.index t (1 : Fin 2) = 0 := (idx_facts t).2.2.2.2.2.2.2.1
theorem idx_bout (t : Fin cfg0.N) : win0_8.index t (0 : Fin 2) = 0 ∧ win0_8.index t (1 : Fin 2) = 0 := (idx_facts t).2.2.2.2.2.2.2.2.1
/-- The output's block index: column block 0, some row block below 50. -/
theorem idx_out (t : Fin cfg0.N) : win0_9.index t (1 : Fin 2) = 0 ∧ win0_9.index t (0 : Fin 2) ≤ 49 := (idx_facts t).2.2.2.2.2.2.2.2.2

/-- Every row block is some grid point's. -/
theorem idx_onto : ∀ q0 : Fin 50, ∃ t : Fin cfg0.N, win0_9.index t = ![q0.val, 0] :=
  (by decide +kernel : ∀ q0 : Fin 50, ∃ t : Fin grid0.N, win0_9.index t = ![q0.val, 0])

/-! ## Each window's block at a point, at its literal type, read at an entry -/

/-- The node features' block at point t. -/
abbrev featBlk (c : Dev nD) (t : Fin cfg0.N) : FVec Ideal S2000x32 .f32 := iblk m c 0 t
/-- The aggregated messages' block at point t. -/
abbrev msgBlk (c : Dev nD) (t : Fin cfg0.N) : FVec Ideal S2000x32 .f32 := iblk m c 1 t
/-- The first layer's two weight blocks and its bias block. -/
abbrev winABlk (c : Dev nD) (t : Fin cfg0.N) : FVec Ideal S32x256 .bf16 := iblk m c 2 t
abbrev winBBlk (c : Dev nD) (t : Fin cfg0.N) : FVec Ideal S32x256 .bf16 := iblk m c 3 t
abbrev binBlk (c : Dev nD) (t : Fin cfg0.N) : FVec Ideal S1x256 .f32 := iblk m c 4 t
/-- The hidden layer's weight and bias blocks. -/
abbrev whBlk (c : Dev nD) (t : Fin cfg0.N) : FVec Ideal S256x256 .bf16 := iblk m c 5 t
abbrev bhBlk (c : Dev nD) (t : Fin cfg0.N) : FVec Ideal S1x256 .f32 := iblk m c 6 t
/-- The output layer's weight and bias blocks. -/
abbrev woutBlk (c : Dev nD) (t : Fin cfg0.N) : FVec Ideal S256x64 .bf16 := iblk m c 7 t
abbrev boutBlk (c : Dev nD) (t : Fin cfg0.N) : FVec Ideal S1x64 .f32 := iblk m c 8 t

/-- Row r of the node features' block at point t is node row `n = 2000 · (the output's row block) + r`. -/
theorem featBlk_apply (c : Dev nD) (t : Fin cfg0.N) (r : Fin 2000) (a : Fin 32) (n : Fin 100000)
    (hn : n.val = win0_9.index t (0 : Fin 2) * 2000 + r.val) :
    featBlk m c t (ix2 r a) = m ((c : Thread nD τ).loc main_arg0) (ix2 n a) := by
  obtain ⟨e0, e1⟩ := idx_feat t
  show V m c main_arg0 (((cfg0.win 0).blk t).view.emb (ix2 r a)) = _
  rw [V_main_arg0]
  refine congrArg _ (funext fun ax => Fin.ext ?_)
  match ax with
  | ⟨0, _⟩ => show win0_0.index t (0 : Fin 2) * 2000 + 1 * r.val = n.val; omega
  | ⟨1, _⟩ => show win0_0.index t (1 : Fin 2) * 32 + 1 * a.val = a.val; omega

/-- The second window's array, named as the window names it, holds the aggregated messages of the arguments. -/
theorem V_msg_arr (c : Dev nD) : (V m c (Pipeline.arrRef spec0 1) : (⟨S100000x32, .f32⟩ : BufTy).Contents (Elt Ideal))
    = msgK (m ((c : Thread nD τ).loc main_arg0)) (m ((c : Thread nD τ).loc main_arg1)) (m ((c : Thread nD τ).loc main_arg8)) :=
  V_msg m c

/-- Row r of the second window's block at point t is row n of the array `A` the window stages.  The array is kept a
    variable: the block is a restriction of it whatever it holds. -/
theorem msgBlk_read (c : Dev nD) (t : Fin cfg0.N) (r : Fin 2000) (a : Fin 32) (n : Fin 100000)
    (hn : n.val = win0_9.index t (0 : Fin 2) * 2000 + r.val)
    (A : (⟨S100000x32, .f32⟩ : BufTy).Contents (Elt Ideal))
    (hA : (V m c (Pipeline.arrRef spec0 1) : (⟨S100000x32, .f32⟩ : BufTy).Contents (Elt Ideal)) = A) :
    msgBlk m c t (ix2 r a) = A (ix2 n a) := by
  obtain ⟨e0, e1⟩ := idx_msg t
  have e : ((cfg0.win 1).blk t).view.emb (ix2 r a) = ix2 n a := funext fun ax => Fin.ext (by
    match ax with
    | ⟨0, _⟩ => show win0_1.index t (0 : Fin 2) * 2000 + 1 * r.val = n.val; omega
    | ⟨1, _⟩ => show win0_1.index t (1 : Fin 2) * 32 + 1 * a.val = a.val; omega)
  show ((cfg0.win 1).blk t).view.read (Elt Ideal) (V m c (Pipeline.arrRef spec0 1)) (ix2 r a) = _
  rw [hA]
  show A (((cfg0.win 1).blk t).view.emb (ix2 r a)) = _
  rw [e]

/-- The first layer's weights for a node's own row: the block is the whole array at every point. -/
theorem winABlk_apply (c : Dev nD) (t : Fin cfg0.N) (a : Fin 32) (k : Fin 256) :
    winABlk m c t (ix2 a k) = m ((c : Thread nD τ).loc main_arg2) (ix2 k (⟨a.val, by have := a.isLt; omega⟩ : Fin 64)) := by
  obtain ⟨e0, e1⟩ := idx_winA t
  show V m c main_v19 (((cfg0.win 2).blk t).view.emb (ix2 a k)) = _
  have e : ((cfg0.win 2).blk t).view.emb (ix2 a k) = ix2 a k := funext fun ax => Fin.ext (by
    match ax with
    | ⟨0, _⟩ => show win0_2.index t (0 : Fin 2) * 32 + 1 * a.val = a.val; omega
    | ⟨1, _⟩ => show win0_2.index t (1 : Fin 2) * 256 + 1 * k.val = k.val; omega)
  rw [e]
  exact winA_apply m c a k

/-- The first layer's weights for the aggregated row. -/
theorem winBBlk_apply (c : Dev nD) (t : Fin cfg0.N) (a : Fin 32) (k : Fin 256) :
    winBBlk m c t (ix2 a k) = m ((c : Thread nD τ).loc main_arg2) (ix2 k (⟨32 + a.val, by have := a.isLt; omega⟩ : Fin 64)) := by
  obtain ⟨e0, e1⟩ := idx_winB t
  show V m c main_v22 (((cfg0.win 3).blk t).view.emb (ix2 a k)) = _
  have e : ((cfg0.win 3).blk t).view.emb (ix2 a k) = ix2 a k := funext fun ax => Fin.ext (by
    match ax with
    | ⟨0, _⟩ => show win0_3.index t (0 : Fin 2) * 32 + 1 * a.val = a.val; omega
    | ⟨1, _⟩ => show win0_3.index t (1 : Fin 2) * 256 + 1 * k.val = k.val; omega)
  rw [e]
  exact winB_apply m c a k

/-- The first layer's bias. -/
theorem binBlk_apply (c : Dev nD) (t : Fin cfg0.N) (k : Fin 256) :
    binBlk m c t (ix2 (0 : Fin 1) k) = m ((c : Thread nD τ).loc main_arg3) (ix1 k) := by
  obtain ⟨e0, e1⟩ := idx_bin t
  show V m c main_v27 (((cfg0.win 4).blk t).view.emb (ix2 (0 : Fin 1) k)) = _
  have e : ((cfg0.win 4).blk t).view.emb (ix2 (0 : Fin 1) k) = ix2 (0 : Fin 1) k := funext fun ax => Fin.ext (by
    match ax with
    | ⟨0, _⟩ => show win0_4.index t (0 : Fin 2) * 1 + 1 * 0 = 0; omega
    | ⟨1, _⟩ => show win0_4.index t (1 : Fin 2) * 256 + 1 * k.val = k.val; omega)
  rw [e]
  exact bin_apply m c k

/-- The hidden layer's weights. -/
theorem whBlk_apply (c : Dev nD) (t : Fin cfg0.N) (a k : Fin 256) :
    whBlk m c t (ix2 a k) = m ((c : Thread nD τ).loc main_arg4) (ix2 k a) := by
  obtain ⟨e0, e1⟩ := idx_wh t
  show V m c main_v24 (((cfg0.win 5).blk t).view.emb (ix2 a k)) = _
  have e : ((cfg0.win 5).blk t).view.emb (ix2 a k) = ix2 a k := funext fun ax => Fin.ext (by
    match ax with
    | ⟨0, _⟩ => show win0_5.index t (0 : Fin 2) * 256 + 1 * a.val = a.val; omega
    | ⟨1, _⟩ => show win0_5.index t (1 : Fin 2) * 256 + 1 * k.val = k.val; omega)
  rw [e]
  exact wh_apply m c a k

/-- The hidden layer's bias. -/
theorem bhBlk_apply (c : Dev nD) (t : Fin cfg0.N) (k : Fin 256) :
    bhBlk m c t (ix2 (0 : Fin 1) k) = m ((c : Thread nD τ).loc main_arg5) (ix1 k) := by
  obtain ⟨e0, e1⟩ := idx_bh t
  show V m c main_v28 (((cfg0.win 6).blk t).view.emb (ix2 (0 : Fin 1) k)) = _
  have e : ((cfg0.win 6).blk t).view.emb (ix2 (0 : Fin 1) k) = ix2 (0 : Fin 1) k := funext fun ax => Fin.ext (by
    match ax with
    | ⟨0, _⟩ => show win0_6.index t (0 : Fin 2) * 1 + 1 * 0 = 0; omega
    | ⟨1, _⟩ => show win0_6.index t (1 : Fin 2) * 256 + 1 * k.val = k.val; omega)
  rw [e]
  exact bh_apply m c k

/-- The output layer's weights. -/
theorem woutBlk_apply (c : Dev nD) (t : Fin cfg0.N) (a : Fin 256) (j : Fin 64) :
    woutBlk m c t (ix2 a j) = m ((c : Thread nD τ).loc main_arg6) (ix2 j a) := by
  obtain ⟨e0, e1⟩ := idx_wout t
  show V m c main_v26 (((cfg0.win 7).blk t).view.emb (ix2 a j)) = _
  have e : ((cfg0.win 7).blk t).view.emb (ix2 a j) = ix2 a j := funext fun ax => Fin.ext (by
    match ax with
    | ⟨0, _⟩ => show win0_7.index t (0 : Fin 2) * 256 + 1 * a.val = a.val; omega
    | ⟨1, _⟩ => show win0_7.index t (1 : Fin 2) * 64 + 1 * j.val = j.val; omega)
  rw [e]
  exact wout_apply m c a j

/-- The output layer's bias. -/
theorem boutBlk_apply (c : Dev nD) (t : Fin cfg0.N) (j : Fin 64) :
    boutBlk m c t (ix2 (0 : Fin 1) j) = m ((c : Thread nD τ).loc main_arg7) (ix1 j) := by
  obtain ⟨e0, e1⟩ := idx_bout t
  show V m c main_v29 (((cfg0.win 8).blk t).view.emb (ix2 (0 : Fin 1) j)) = _
  have e : ((cfg0.win 8).blk t).view.emb (ix2 (0 : Fin 1) j) = ix2 (0 : Fin 1) j := funext fun ax => Fin.ext (by
    match ax with
    | ⟨0, _⟩ => show win0_8.index t (0 : Fin 2) * 1 + 1 * 0 = 0; omega
    | ⟨1, _⟩ => show win0_8.index t (1 : Fin 2) * 64 + 1 * j.val = j.val; omega)
  rw [e]
  exact bout_apply m c j

/-! ## What a point writes back, the cover, the run -/

/-- The network applied to every node row, over the arguments as launched on core `c` and an array `A` of aggregated
    messages. -/
abbrev resultOf (c : Dev nD) (A : (⟨2, ![100000, 32]⟩ : Shape).Idx → EReal) : (⟨2, ![100000, 64]⟩ : Shape).Idx → EReal :=
  rowsMlp (m ((c : Thread nD τ).loc main_arg0)) A
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What grid point `t` writes back is block `t` of the network applied to every node row, `A` the array the second
    window stages. -/
theorem flushed_eq (c : Dev nD) (t : Fin cfg0.N) (A : (⟨S100000x32, .f32⟩ : BufTy).Contents (Elt Ideal))
    (hA : (V m c (Pipeline.arrRef spec0 1) : (⟨S100000x32, .f32⟩ : BufTy).Contents (Elt Ideal)) = A) :
    (dats m 0 c).flushed 9 t = ((cfg0.win 9).blk t).view.read (Elt Ideal) (resultOf m c A) := by
  rw [Cert.KernelIdeal.Value.flushed9]
  unfold out0_9
  rw [View.canon_unit_zero hz]
  simp only [View.ld_unit_zero (S := S2000x32) hz, View.ld_unit_zero (S := S32x256) hz, View.ld_unit_zero (S := S1x256) hz,
    View.ld_unit_zero (S := S256x256) hz, View.ld_unit_zero (S := S256x64) hz, View.ld_unit_zero (S := S1x64) hz]
  obtain ⟨e91, e9b⟩ := idx_out t
  funext j
  obtain ⟨r, q, rfl⟩ : ∃ (r : Fin 2000) (q : Fin 64), j = ix2 r q := ⟨j 0, j 1, eq_ix2 j⟩
  have hr : r.val < 2000 := r.isLt
  have hq : q.val < 64 := q.isLt
  have hn : win0_9.index t (0 : Fin 2) * 2000 + r.val < 100000 := by omega
  show k0_pay1 (F := Ideal) (k0_pay2 (F := Ideal) (featBlk m c t) (msgBlk m c t) (winABlk m c t) (winBBlk m c t) (binBlk m c t) (whBlk m c t) (bhBlk m c t)) (woutBlk m c t) (boutBlk m c t) (ix2 r q)
    = resultOf m c A (((cfg0.win 9).blk t).view.emb (ix2 r q))
  refine (block_value (featBlk m c t) (msgBlk m c t) (winABlk m c t) (winBBlk m c t) (binBlk m c t) (whBlk m c t) (bhBlk m c t) (woutBlk m c t) (boutBlk m c t)
    (m ((c : Thread nD τ).loc main_arg0)) A
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (⟨win0_9.index t (0 : Fin 2) * 2000 + r.val, hn⟩ : Fin 100000) r q
    (fun a => featBlk_apply m c t r a _ rfl) (fun a => msgBlk_read m c t r a _ rfl A hA)
    (fun a k => winABlk_apply m c t a k) (fun a k => winBBlk_apply m c t a k) (fun k => binBlk_apply m c t k)
    (fun a k => whBlk_apply m c t a k) (fun k => bhBlk_apply m c t k)
    (fun a j => woutBlk_apply m c t a j) (fun j => boutBlk_apply m c t j)).trans ?_
  have key : ((cfg0.win 9).blk t).view.emb (ix2 r q) = ix2 (⟨win0_9.index t (0 : Fin 2) * 2000 + r.val, hn⟩ : Fin 100000) q :=
    funext fun ax => Fin.ext (by
      match ax with
      | ⟨0, _⟩ => show win0_9.index t (0 : Fin 2) * 2000 + 1 * r.val = win0_9.index t (0 : Fin 2) * 2000 + r.val; omega
      | ⟨1, _⟩ => show win0_9.index t (1 : Fin 2) * 64 + 1 * q.val = q.val; omega)
  rw [key]
  exact (rowsMlp_apply _ _ _ _ _ _ _ _ _ _).symm

/-- An index of the result is in point `t`'s block iff each coordinate is in the block's range on its axis. -/
theorem mem_blk (t : Fin cfg0.N) (i : S100000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v30).slice (win0_9.rect t)).set ↔ _
  rw [View.set_slice_whole, Rect.mem_set_unit]
  exact Iff.rfl

/-- Every index of the result lies in the block of the grid point that handles its row. -/
theorem cover (i : S100000x64.Idx) : ∃ t : Fin cfg0.N, (cfg0.win 9).flush t = true ∧ i ∈ ((cfg0.win 9).blk t).view.set := by
  have hi0 : (i 0).val < 100000 := idx2_lt0 i
  have hi1 : (i 1).val < 64 := idx2_lt1 i
  obtain ⟨t, ht⟩ := idx_onto ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 64 ≤ (i 1).val ∧ (i 1).val < win0_9.index t (1 : Fin 2) * 64 + 64; omega

/-- The result array after the run: the network applied to every node row. -/
theorem final (c : Dev nD) (A : (⟨S100000x32, .f32⟩ : BufTy).Contents (Elt Ideal))
    (hA : (V m c (Pipeline.arrRef spec0 1) : (⟨S100000x32, .f32⟩ : BufTy).Contents (Elt Ideal)) = A) :
    (dats m 0 c).arrAt 9 cfg0.N = resultOf m c A :=
  (dats m 0 c).arrAt_eq_of_cover 9 (resultOf m c A) (fun t _ => flushed_eq m c t A hA) cover

/-- The kernel's run: it terminates with the result array at the network applied to every node row (the aggregated
    messages those of the arguments) and the arguments unchanged. -/
theorem run : θ_run defs (onTc (τ := τ) (main (F := Ideal))) ⟨m, fun _ => 0, ρ⟩ fun r => ∀ c : Dev nD,
      r.2.mem ((c : Thread nD τ).loc main_v30)
        = resultOf m c (msgK (m ((c : Thread nD τ).loc main_arg0)) (m ((c : Thread nD τ).loc main_arg1)) (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c _ (V_msg_arr m c)), (h c).2⟩) (Cert.KernelIdeal.Value.run_blocks m ρ)

end Cert.KerSide

end
-- ==== Proof.RefDefs.lean ====
/-
  The reference's result as a function of its arguments, written once: the message aggregation
  (each edge's source row scaled by the edge's weight, summed into the edge's target row) and, after it, the
  three dense layers over the node's own row and its aggregated row side by side.  The two halves are kept
  apart because the kernel's program computes the first half by the very same host operations: only the
  second half is ever read at an index.
-/
import proofs.«122095_j23802708755058_1_alg».proof.Proof.Gen.ReferenceIdeal

noncomputable section

namespace Cert.RefSide

open Cert.ReferenceIdeal Cert.ReferenceIdeal.Gen Idealize.ShloMosaic Idealize.ShloMosaic.TcCoe

variable {F : FTy → Type} [FloatOps F]

/-- Aggregated messages: row `d` is the sum over the edges `e` with target `d` of `weight e · feat[source e]`
    (indices read signed, negative ones wrapped by the node count, as the host's gather and scatter-add take them). -/
def msg (feat : (⟨S100000x32, .f32⟩ : BufTy).Contents (Elt F)) (ew : (⟨S1600000, .f32⟩ : BufTy).Contents (Elt F))
    (ei : (⟨S2x1600000, .i32⟩ : BufTy).Contents (Elt F)) : (⟨S100000x32, .f32⟩ : BufTy).Contents (Elt F) :=
  let v1 : (⟨S1600000, .i32⟩ : BufTy).Contents (Elt F) :=
    shapeCast S1600000 (extractStridedSlice S1x1600000 ![0, 0] ei slices_S2x1600000_S1x1600000_0_0) shapeCasts_S1x1600000_S1600000
  let v3 : (⟨S1600000, .i32⟩ : BufTy).Contents (Elt F) :=
    shapeCast S1600000 (extractStridedSlice S1x1600000 ![1, 0] ei slices_S2x1600000_S1x1600000_1_0) shapeCasts_S1x1600000_S1600000
  let v4 : (⟨S1600000, .i32⟩ : BufTy).Contents (Elt F) := broadcastInDim S1600000 ![] bcast_S_S1600000 (constantI S_ 32 0#32)
  let v5 : (⟨S1600000, .i1⟩ : BufTy).Contents (Elt F) := cmpi .slt v1 v4
  let v6 : (⟨S1600000, .i32⟩ : BufTy).Contents (Elt F) := broadcastInDim S1600000 ![] bcast_S_S1600000 (constantI S_ 32 100000#32)
  let v7 : (⟨S1600000, .i32⟩ : BufTy).Contents (Elt F) := addi v1 v6
  let v8 : (⟨S1600000, .i32⟩ : BufTy).Contents (Elt F) := select v5 v7 v1
  let v9 : (⟨S1600000x1, .i32⟩ : BufTy).Contents (Elt F) := broadcastInDim S1600000x1 ![0] bcast_S1600000_S1600000x1_0 v8
  let v10 : (⟨S1600000x32, .f32⟩ : BufTy).Contents (Elt F) := Host.gather gather_S100000x32_S1600000x1_S1600000x32_1_0_n_n_0_1_132 feat v9
  let v11 : (⟨S1600000x1, .f32⟩ : BufTy).Contents (Elt F) := broadcastInDim S1600000x1 ![0] bcast_S1600000_S1600000x1_0 ew
  let v12 : (⟨S1600000x32, .f32⟩ : BufTy).Contents (Elt F) := broadcastInDim S1600000x32 ![0, 1] bcast_S1600000x1_S1600000x32_0_1 v11
  let v13 : (⟨S1600000x32, .f32⟩ : BufTy).Contents (Elt F) := mulf v10 v12
  let v14 : (⟨S100000x32, .f32⟩ : BufTy).Contents (Elt F) := broadcastInDim S100000x32 ![] bcast_S_S100000x32 (constant S_ .f32 0x00000000#32)
  let v15 : (⟨S1600000x1, .i32⟩ : BufTy).Contents (Elt F) := broadcastInDim S1600000x1 ![0] bcast_S1600000_S1600000x1_0 v3
  Host.scatterAdd scatter_S100000x32_S1600000x1_S1600000x32_1_0_0_1 v14 v15 v13

/-- The host's ELU on a whole [100000, 256] array: `x` where `x > 0`, else `1 · expm1` of `x` guarded to `0` where `x > 0`. -/
def eluH (x : (⟨S100000x256, .f32⟩ : BufTy).Contents (Elt F)) : (⟨S100000x256, .f32⟩ : BufTy).Contents (Elt F) :=
  let v1 : (⟨S100000x256, .i1⟩ : BufTy).Contents (Elt F) :=
    cmpf .ogt x (broadcastInDim S100000x256 ![] bcast_S_S100000x256 (constant S_ .f32 0x00000000#32))
  let v3 : (⟨S100000x256, .i1⟩ : BufTy).Contents (Elt F) :=
    cmpf .ogt x (broadcastInDim S100000x256 ![] bcast_S_S100000x256 (constant S_ .f32 0x00000000#32))
  let w2 : (⟨S100000x256, .f32⟩ : BufTy).Contents (Elt F) :=
    select v3 (broadcastInDim S100000x256 ![] bcast_S_S100000x256 (id (constant S_ .f32 0x00000000#32))) x
  let v7 : (⟨S100000x256, .f32⟩ : BufTy).Contents (Elt F) :=
    mulf (broadcastInDim S100000x256 ![] bcast_S_S100000x256 (constant S_ .f32 0x3F800000#32)) (Host.expm1 w2)
  select v1 x v7

/-- The three dense layers over each node's own row and aggregated row side by side, ELU after the first two. -/
def tail (feat msg : (⟨S100000x32, .f32⟩ : BufTy).Contents (Elt F)) (Win : (⟨S256x64, .f32⟩ : BufTy).Contents (Elt F))
    (bin : (⟨S256, .f32⟩ : BufTy).Contents (Elt F)) (Wh : (⟨S256x256, .f32⟩ : BufTy).Contents (Elt F))
    (bh : (⟨S256, .f32⟩ : BufTy).Contents (Elt F)) (Wout : (⟨S64x256, .f32⟩ : BufTy).Contents (Elt F))
    (bout : (⟨S64, .f32⟩ : BufTy).Contents (Elt F)) : (⟨S100000x64, .f32⟩ : BufTy).Contents (Elt F) :=
  let v17 : (⟨S100000x64, .f32⟩ : BufTy).Contents (Elt F) :=
    concatenate S100000x64 1 [⟨S100000x32, feat⟩, ⟨S100000x32, msg⟩] concatenates_S100000x32_S100000x32_S100000x64_d1
  let v22 : (⟨S100000x256, .f32⟩ : BufTy).Contents (Elt F) :=
    addf (Host.dotGeneral dot_S100000x64_S64x256_S100000x256_1_0_0_1_n_n none v17 (transpose S64x256 [1, 0] Win transposes_S256x64_S64x256_1_0))
      (broadcastInDim S100000x256 ![0, 1] bcast_S1x256_S100000x256_0_1 (broadcastInDim S1x256 ![1] bcast_S256_S1x256_1 bin))
  let v28 : (⟨S100000x256, .f32⟩ : BufTy).Contents (Elt F) :=
    addf (Host.dotGeneral dot_S100000x256_S256x256_S100000x256_1_0_0_1_n_n none (eluH v22) (transpose S256x256 [1, 0] Wh transposes_S256x256_S256x256_1_0))
      (broadcastInDim S100000x256 ![0, 1] bcast_S1x256_S100000x256_0_1 (broadcastInDim S1x256 ![1] bcast_S256_S1x256_1 bh))
  addf (Host.dotGeneral dot_S100000x256_S256x64_S100000x64_1_0_0_1_n_n none (eluH v28) (transpose S256x64 [1, 0] Wout transposes_S64x256_S256x64_1_0))
    (broadcastInDim S100000x64 ![0, 1] bcast_S1x64_S100000x64_0_1 (broadcastInDim S1x64 ![1] bcast_S64_S1x64_1 bout))

end Cert.RefSide

end
-- ==== Proof.RefRun.lean ====
/-
  The reference's run: its @main is a straight line of host operations (the ELU function's and its two
  select helpers' operations written out at each of the two calls), so every weakly fair execution terminates
  with the result buffer at the operations' composed term of the arguments, and the arguments unchanged.
-/
import proofs.«122095_j23802708755058_1_alg».proof.Proof.RefDefs
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 66 operations in order, the two calls of the ELU function unfolded: each is fifteen operations over
    that call's own buffers — the zero and its broadcast and the comparison `x > 0`, twice; the zero again, which the
    first select helper converts to its own type, broadcasts and selects against `x` (so the exponential never sees
    a positive entry); `expm1`; the one, its broadcast and the product; the second helper's select between `x` and
    that product. -/
abbrev ops : List (HloOp τ sig (Elt F)) :=
  [ unary main_arg8 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg8 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_arg1 main_v11 (broadcastInDim S1600000x1 ![0] bcast_S1600000_S1600000x1_0 : (⟨S1600000, .f32⟩ : BufTy).Contents (Elt F) → (⟨S1600000x1, .f32⟩ : BufTy).Contents (Elt F)),
    unary main_v11 main_v12 (broadcastInDim S1600000x32 ![0, 1] bcast_S1600000x1_S1600000x32_0_1 : (⟨S1600000x1, .f32⟩ : BufTy).Contents (Elt F) → (⟨S1600000x32, .f32⟩ : BufTy).Contents (Elt F)),
    binary main_v10 main_v12 main_v13 (mulf : (⟨S1600000x32, .f32⟩ : BufTy).Contents (Elt F) → (⟨S1600000x32, .f32⟩ : BufTy).Contents (Elt F) → (⟨S1600000x32, .f32⟩ : BufTy).Contents (Elt F)),
    nullary main_cst (constant S_ .f32 0x00000000#32),
    unary main_cst main_v14 (broadcastInDim S100000x32 ![] bcast_S_S100000x32 : (⟨S_, .f32⟩ : BufTy).Contents (Elt F) → (⟨S100000x32, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    binary main_arg0 main_v16 main_v17 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    unary main_arg2 main_v18 ((transpose S64x256 [1, 0] · transposes_S256x64_S64x256_1_0) : (⟨S256x64, .f32⟩ : BufTy).Contents (Elt F) → (⟨S64x256, .f32⟩ : BufTy).Contents (Elt F)),
    binary main_v17 main_v18 main_v19 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    unary main_arg3 main_v20 (broadcastInDim S1x256 ![1] bcast_S256_S1x256_1 : (⟨S256, .f32⟩ : BufTy).Contents (Elt F) → (⟨S1x256, .f32⟩ : BufTy).Contents (Elt F)),
    unary main_v20 main_v21 (broadcastInDim S100000x256 ![0, 1] bcast_S1x256_S100000x256_0_1 : (⟨S1x256, .f32⟩ : BufTy).Contents (Elt F) → (⟨S100000x256, .f32⟩ : BufTy).Contents (Elt F)),
    binary main_v19 main_v21 main_v22 (addf : (⟨S100000x256, .f32⟩ : BufTy).Contents (Elt F) → (⟨S100000x256, .f32⟩ : BufTy).Contents (Elt F) → (⟨S100000x256, .f32⟩ : BufTy).Contents (Elt F)),
    TRef.nullary main_call0.cst (constant S_ .f32 0x00000000#32),
    TRef.unary main_call0.cst main_call0.v0 (broadcastInDim S100000x256 ![] bcast_S_S100000x256),
    TRef.binary (.of main_v22 : TRef sig ⟨S100000x256, .f32⟩) main_call0.v0 main_call0.v1 (cmpf .ogt),
    TRef.nullary main_call0.cst_0 (constant S_ .f32 0x00000000#32),
    TRef.unary main_call0.cst_0 main_call0.v2 (broadcastInDim S100000x256 ![] bcast_S_S100000x256),
    TRef.binary (.of main_v22 : TRef sig ⟨S100000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x256 ![] bcast_S_S100000x256),
    TRef.ternary main_call0.v3 main_call0.call0.v1 (.of main_v22 : TRef sig ⟨S100000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x256 ![] bcast_S_S100000x256),
    TRef.binary main_call0.v6 main_call0.v5 main_call0.v7 mulf,
    TRef.ternary main_call0.v1 (.of main_v22 : TRef sig ⟨S100000x256, .f32⟩) main_call0.v7 main_call0.call1.v0 select,
    unary main_arg4 main_v24 ((transpose S256x256 [1, 0] · transposes_S256x256_S256x256_1_0) : (⟨S256x256, .f32⟩ : BufTy).Contents (Elt F) → (⟨S256x256, .f32⟩ : BufTy).Contents (Elt F)),
    binary main_v23 main_v24 main_v25 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg5 main_v26 (broadcastInDim S1x256 ![1] bcast_S256_S1x256_1 : (⟨S256, .f32⟩ : BufTy).Contents (Elt F) → (⟨S1x256, .f32⟩ : BufTy).Contents (Elt F)),
    unary main_v26 main_v27 (broadcastInDim S100000x256 ![0, 1] bcast_S1x256_S100000x256_0_1 : (⟨S1x256, .f32⟩ : BufTy).Contents (Elt F) → (⟨S100000x256, .f32⟩ : BufTy).Contents (Elt F)),
    binary main_v25 main_v27 main_v28 (addf : (⟨S100000x256, .f32⟩ : BufTy).Contents (Elt F) → (⟨S100000x256, .f32⟩ : BufTy).Contents (Elt F) → (⟨S100000x256, .f32⟩ : BufTy).Contents (Elt F)),
    TRef.nullary main_call1.cst (constant S_ .f32 0x00000000#32),
    TRef.unary main_call1.cst main_call1.v0 (broadcastInDim S100000x256 ![] bcast_S_S100000x256),
    TRef.binary (.of main_v28 : TRef sig ⟨S100000x256, .f32⟩) main_call1.v0 main_call1.v1 (cmpf .ogt),
    TRef.nullary main_call1.cst_0 (constant S_ .f32 0x00000000#32),
    TRef.unary main_call1.cst_0 main_call1.v2 (broadcastInDim S100000x256 ![] bcast_S_S100000x256),
    TRef.binary (.of main_v28 : TRef sig ⟨S100000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x256 ![] bcast_S_S100000x256),
    TRef.ternary main_call1.v3 main_call1.call0.v1 (.of main_v28 : TRef sig ⟨S100000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x256 ![] bcast_S_S100000x256),
    TRef.binary main_call1.v6 main_call1.v5 main_call1.v7 mulf,
    TRef.ternary main_call1.v1 (.of main_v28 : TRef sig ⟨S100000x256, .f32⟩) main_call1.v7 main_call1.call1.v0 select,
    unary main_arg6 main_v30 ((transpose S256x64 [1, 0] · transposes_S64x256_S256x64_1_0) : (⟨S64x256, .f32⟩ : BufTy).Contents (Elt F) → (⟨S256x64, .f32⟩ : BufTy).Contents (Elt F)),
    binary main_v29 main_v30 main_v31 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg7 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)) ]

set_option maxRecDepth 16384 in
set_option maxHeartbeats 1000000 in
/-- @main is that straight line: the three functions' definitions unfolded at their calls and the records at their
    fields, both sides are one chain of host steps once sequencing is reassociated — which it is by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the TensorCore only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., unary_bufs_sub .., binary_bufs_sub .., unary_bufs_sub .., unary_bufs_sub .., binary_bufs_sub ..⟩

/-- The line in two: the twenty operations that aggregate the messages, and the forty-six dense-layer operations. -/
abbrev opsA : List (HloOp τ sig (Elt F)) :=
  [ unary main_arg8 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg8 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_arg1 main_v11 (broadcastInDim S1600000x1 ![0] bcast_S1600000_S1600000x1_0 : (⟨S1600000, .f32⟩ : BufTy).Contents (Elt F) → (⟨S1600000x1, .f32⟩ : BufTy).Contents (Elt F)),
    unary main_v11 main_v12 (broadcastInDim S1600000x32 ![0, 1] bcast_S1600000x1_S1600000x32_0_1 : (⟨S1600000x1, .f32⟩ : BufTy).Contents (Elt F) → (⟨S1600000x32, .f32⟩ : BufTy).Contents (Elt F)),
    binary main_v10 main_v12 main_v13 (mulf : (⟨S1600000x32, .f32⟩ : BufTy).Contents (Elt F) → (⟨S1600000x32, .f32⟩ : BufTy).Contents (Elt F) → (⟨S1600000x32, .f32⟩ : BufTy).Contents (Elt F)),
    nullary main_cst (constant S_ .f32 0x00000000#32),
    unary main_cst main_v14 (broadcastInDim S100000x32 ![] bcast_S_S100000x32 : (⟨S_, .f32⟩ : BufTy).Contents (Elt F) → (⟨S100000x32, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ]
abbrev opsB : List (HloOp τ sig (Elt F)) :=
  [ binary main_arg0 main_v16 main_v17 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    unary main_arg2 main_v18 ((transpose S64x256 [1, 0] · transposes_S256x64_S64x256_1_0) : (⟨S256x64, .f32⟩ : BufTy).Contents (Elt F) → (⟨S64x256, .f32⟩ : BufTy).Contents (Elt F)),
    binary main_v17 main_v18 main_v19 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    unary main_arg3 main_v20 (broadcastInDim S1x256 ![1] bcast_S256_S1x256_1 : (⟨S256, .f32⟩ : BufTy).Contents (Elt F) → (⟨S1x256, .f32⟩ : BufTy).Contents (Elt F)),
    unary main_v20 main_v21 (broadcastInDim S100000x256 ![0, 1] bcast_S1x256_S100000x256_0_1 : (⟨S1x256, .f32⟩ : BufTy).Contents (Elt F) → (⟨S100000x256, .f32⟩ : BufTy).Contents (Elt F)),
    binary main_v19 main_v21 main_v22 (addf : (⟨S100000x256, .f32⟩ : BufTy).Contents (Elt F) → (⟨S100000x256, .f32⟩ : BufTy).Contents (Elt F) → (⟨S100000x256, .f32⟩ : BufTy).Contents (Elt F)),
    TRef.nullary main_call0.cst (constant S_ .f32 0x00000000#32),
    TRef.unary main_call0.cst main_call0.v0 (broadcastInDim S100000x256 ![] bcast_S_S100000x256),
    TRef.binary (.of main_v22 : TRef sig ⟨S100000x256, .f32⟩) main_call0.v0 main_call0.v1 (cmpf .ogt),
    TRef.nullary main_call0.cst_0 (constant S_ .f32 0x00000000#32),
    TRef.unary main_call0.cst_0 main_call0.v2 (broadcastInDim S100000x256 ![] bcast_S_S100000x256),
    TRef.binary (.of main_v22 : TRef sig ⟨S100000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x256 ![] bcast_S_S100000x256),
    TRef.ternary main_call0.v3 main_call0.call0.v1 (.of main_v22 : TRef sig ⟨S100000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x256 ![] bcast_S_S100000x256),
    TRef.binary main_call0.v6 main_call0.v5 main_call0.v7 mulf,
    TRef.ternary main_call0.v1 (.of main_v22 : TRef sig ⟨S100000x256, .f32⟩) main_call0.v7 main_call0.call1.v0 select,
    unary main_arg4 main_v24 ((transpose S256x256 [1, 0] · transposes_S256x256_S256x256_1_0) : (⟨S256x256, .f32⟩ : BufTy).Contents (Elt F) → (⟨S256x256, .f32⟩ : BufTy).Contents (Elt F)),
    binary main_v23 main_v24 main_v25 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg5 main_v26 (broadcastInDim S1x256 ![1] bcast_S256_S1x256_1 : (⟨S256, .f32⟩ : BufTy).Contents (Elt F) → (⟨S1x256, .f32⟩ : BufTy).Contents (Elt F)),
    unary main_v26 main_v27 (broadcastInDim S100000x256 ![0, 1] bcast_S1x256_S100000x256_0_1 : (⟨S1x256, .f32⟩ : BufTy).Contents (Elt F) → (⟨S100000x256, .f32⟩ : BufTy).Contents (Elt F)),
    binary main_v25 main_v27 main_v28 (addf : (⟨S100000x256, .f32⟩ : BufTy).Contents (Elt F) → (⟨S100000x256, .f32⟩ : BufTy).Contents (Elt F) → (⟨S100000x256, .f32⟩ : BufTy).Contents (Elt F)),
    TRef.nullary main_call1.cst (constant S_ .f32 0x00000000#32),
    TRef.unary main_call1.cst main_call1.v0 (broadcastInDim S100000x256 ![] bcast_S_S100000x256),
    TRef.binary (.of main_v28 : TRef sig ⟨S100000x256, .f32⟩) main_call1.v0 main_call1.v1 (cmpf .ogt),
    TRef.nullary main_call1.cst_0 (constant S_ .f32 0x00000000#32),
    TRef.unary main_call1.cst_0 main_call1.v2 (broadcastInDim S100000x256 ![] bcast_S_S100000x256),
    TRef.binary (.of main_v28 : TRef sig ⟨S100000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x256 ![] bcast_S_S100000x256),
    TRef.ternary main_call1.v3 main_call1.call0.v1 (.of main_v28 : TRef sig ⟨S100000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x256 ![] bcast_S_S100000x256),
    TRef.binary main_call1.v6 main_call1.v5 main_call1.v7 mulf,
    TRef.ternary main_call1.v1 (.of main_v28 : TRef sig ⟨S100000x256, .f32⟩) main_call1.v7 main_call1.call1.v0 select,
    unary main_arg6 main_v30 ((transpose S256x64 [1, 0] · transposes_S64x256_S256x64_1_0) : (⟨S64x256, .f32⟩ : BufTy).Contents (Elt F) → (⟨S256x64, .f32⟩ : BufTy).Contents (Elt F)),
    binary main_v29 main_v30 main_v31 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg7 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)) ]

/-- The line is its two parts in a row. -/
theorem ops_split : (ops : List (HloOp τ sig (Elt F))) = opsA ++ opsB := rfl

/-- The fold over two lines in a row is the second's fold of the first's. -/
theorem after_ops_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_ops_append l₁ l₂]

attribute [local irreducible] Host.gather Host.scatterAdd broadcastInDim extractStridedSlice in
set_option maxRecDepth 16384 in
set_option maxHeartbeats 1600000 in
/-- After the first twenty operations the scatter-add's buffer holds the aggregated messages: each operation's result
    at its own buffer is its function's value of its operands' contents, and at any other buffer what was there;
    composed along the line that is `msg`'s chain, entry for entry. The gather, the scatter-add, the broadcasts and the
    slices are kept folded meanwhile: the equation never looks inside them. -/
theorem opsA_v16_eq (V : Valuation τ sig (Elt F)) :
    after opsA V (main_v16 : DevRef τ sig)
      = msg (V (main_arg0 : DevRef τ sig)) (V (main_arg1 : DevRef τ sig)) (V (main_arg8 : DevRef τ sig)) := by
  unfold msg
  dsimp only [opsA]
  after_results_simp
  rfl

/-- None of the first twenty operations writes argument 0's buffer. -/
theorem opsA_arg0_eq (V : Valuation τ sig (Elt F)) :
    after opsA V (main_arg0 : DevRef τ sig) = V (main_arg0 : DevRef τ sig) := by
  dsimp only [opsA]
  after_results_simp

/-- None of the first twenty operations writes argument 2's buffer. -/
theorem opsA_arg2_eq (V : Valuation τ sig (Elt F)) :
    after opsA V (main_arg2 : DevRef τ sig) = V (main_arg2 : DevRef τ sig) := by
  dsimp only [opsA]
  after_results_simp

/-- None of the first twenty operations writes argument 3's buffer. -/
theorem opsA_arg3_eq (V : Valuation τ sig (Elt F)) :
    after opsA V (main_arg3 : DevRef τ sig) = V (main_arg3 : DevRef τ sig) := by
  dsimp only [opsA]
  after_results_simp

/-- None of the first twenty operations writes argument 4's buffer. -/
theorem opsA_arg4_eq (V : Valuation τ sig (Elt F)) :
    after opsA V (main_arg4 : DevRef τ sig) = V (main_arg4 : DevRef τ sig) := by
  dsimp only [opsA]
  after_results_simp

/-- None of the first twenty operations writes argument 5's buffer. -/
theorem opsA_arg5_eq (V : Valuation τ sig (Elt F)) :
    after opsA V (main_arg5 : DevRef τ sig) = V (main_arg5 : DevRef τ sig) := by
  dsimp only [opsA]
  after_results_simp

/-- None of the first twenty operations writes argument 6's buffer. -/
theorem opsA_arg6_eq (V : Valuation τ sig (Elt F)) :
    after opsA V (main_arg6 : DevRef τ sig) = V (main_arg6 : DevRef τ sig) := by
  dsimp only [opsA]
  after_results_simp

/-- None of the first twenty operations writes argument 7's buffer. -/
theorem opsA_arg7_eq (V : Valuation τ sig (Elt F)) :
    after opsA V (main_arg7 : DevRef τ sig) = V (main_arg7 : DevRef τ sig) := by
  dsimp only [opsA]
  after_results_simp

attribute [local irreducible] Host.expm1 concatenate transpose broadcastInDim in
set_option maxRecDepth 16384 in
set_option maxHeartbeats 1600000 in
/-- The remaining operations take the node rows and the aggregated rows to `tail` of them, from any contents `W`:
    composed along the line, the operations' values are `tail`'s chain (the ELU function's fifteen at each call are
    `eluH`, the typed references' transports the identity at these literal references). `expm1`, the concatenation,
    the transpositions and the broadcasts are kept folded meanwhile: the equation never looks inside them. -/
theorem opsB_v34_eq (W : Valuation τ sig (Elt F)) :
    after opsB W (main_v34 : DevRef τ sig)
      = tail (W (main_arg0 : DevRef τ sig)) (W (main_v16 : DevRef τ sig))
          (W (main_arg2 : DevRef τ sig)) (W (main_arg3 : DevRef τ sig)) (W (main_arg4 : DevRef τ sig))
          (W (main_arg5 : DevRef τ sig)) (W (main_arg6 : DevRef τ sig)) (W (main_arg7 : DevRef τ sig)) := by
  unfold tail eluH
  dsimp only [opsB]
  after_results_simp
  rfl

/-- The fold at the result buffer is `tail` of the arguments and of their aggregated messages: the first part leaves
    the aggregated messages in the scatter-add's buffer and the arguments as they were, the second part takes those to
    `tail` of them. -/
theorem out_eq (V : Valuation τ sig (Elt F)) :
    after ops V (main_v34 : DevRef τ sig)
      = tail (V (main_arg0 : DevRef τ sig))
          (msg (V (main_arg0 : DevRef τ sig)) (V (main_arg1 : DevRef τ sig)) (V (main_arg8 : DevRef τ sig)))
          (V (main_arg2 : DevRef τ sig)) (V (main_arg3 : DevRef τ sig)) (V (main_arg4 : DevRef τ sig))
          (V (main_arg5 : DevRef τ sig)) (V (main_arg6 : DevRef τ sig)) (V (main_arg7 : DevRef τ sig)) := by
  rw [ops_split, after_ops_append, opsB_v34_eq, opsA_v16_eq, opsA_arg0_eq, opsA_arg2_eq, opsA_arg3_eq, opsA_arg4_eq, opsA_arg5_eq, opsA_arg6_eq, opsA_arg7_eq]

/-- No operation of the line writes argument 0's buffer. -/
theorem arg0_eq (V : Valuation τ sig (Elt F)) :
    after ops V (main_arg0 : DevRef τ sig) = V (main_arg0 : DevRef τ sig) := by
  dsimp only [ops]
  after_results_simp

/-- No operation of the line writes argument 1's buffer. -/
theorem arg1_eq (V : Valuation τ sig (Elt F)) :
    after ops V (main_arg1 : DevRef τ sig) = V (main_arg1 : DevRef τ sig) := by
  dsimp only [ops]
  after_results_simp

/-- No operation of the line writes argument 2's buffer. -/
theorem arg2_eq (V : Valuation τ sig (Elt F)) :
    after ops V (main_arg2 : DevRef τ sig) = V (main_arg2 : DevRef τ sig) := by
  dsimp only [ops]
  after_results_simp

/-- No operation of the line writes argument 3's buffer. -/
theorem arg3_eq (V : Valuation τ sig (Elt F)) :
    after ops V (main_arg3 : DevRef τ sig) = V (main_arg3 : DevRef τ sig) := by
  dsimp only [ops]
  after_results_simp

/-- No operation of the line writes argument 4's buffer. -/
theorem arg4_eq (V : Valuation τ sig (Elt F)) :
    after ops V (main_arg4 : DevRef τ sig) = V (main_arg4 : DevRef τ sig) := by
  dsimp only [ops]
  after_results_simp

/-- No operation of the line writes argument 5's buffer. -/
theorem arg5_eq (V : Valuation τ sig (Elt F)) :
    after ops V (main_arg5 : DevRef τ sig) = V (main_arg5 : DevRef τ sig) := by
  dsimp only [ops]
  after_results_simp

/-- No operation of the line writes argument 6's buffer. -/
theorem arg6_eq (V : Valuation τ sig (Elt F)) :
    after ops V (main_arg6 : DevRef τ sig) = V (main_arg6 : DevRef τ sig) := by
  dsimp only [ops]
  after_results_simp

/-- No operation of the line writes argument 7's buffer. -/
theorem arg7_eq (V : Valuation τ sig (Elt F)) :
    after ops V (main_arg7 : DevRef τ sig) = V (main_arg7 : DevRef τ sig) := by
  dsimp only [ops]
  after_results_simp

/-- No operation of the line writes argument 8's buffer. -/
theorem arg8_eq (V : Valuation τ sig (Elt F)) :
    after ops V (main_arg8 : DevRef τ sig) = V (main_arg8 : DevRef τ sig) := by
  dsimp only [ops]
  after_results_simp

/-- Every weakly fair execution of the reference's @main terminates with the result at `tail` of the arguments
    and of their aggregated messages `msg`, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = tail (m ((c.tc : Thread nD τ).loc main_arg0))
            (msg (m ((c.tc : Thread nD τ).loc main_arg0)) (m ((c.tc : Thread nD τ).loc main_arg1)) (m ((c.tc : Thread nD τ).loc main_arg8)))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v34).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.RefSide

end
-- ==== Proof.RefTail.lean ====
/-
  The reference's three dense layers read at one entry: entry (n, j) of the result is the network applied to
  row n of the node features followed by row n of the aggregated messages.
-/
import proofs.«122095_j23802708755058_1_alg».proof.Proof.RefDefs
import proofs.«122095_j23802708755058_1_alg».proof.Proof.LibDenseRows

noncomputable section

open scoped BigOperators

namespace Cert.RefSide

open Cert.ReferenceIdeal Cert.ReferenceIdeal.Gen Idealize.ShloMosaic Idealize.ShloMosaic.ValueIdx Cert.DenseRows

/-! ## The printed dimension records are the plain ones -/

theorem dot1_eq : dot_S100000x64_S64x256_S100000x256_1_0_0_1_n_n = DotDims.plain 100000 64 256 := rfl
theorem dot2_eq : dot_S100000x256_S256x256_S100000x256_1_0_0_1_n_n = DotDims.plain 100000 256 256 := rfl
theorem dot3_eq : dot_S100000x256_S256x64_S100000x64_1_0_0_1_n_n = DotDims.plain 100000 256 64 := rfl

/-! ## Each layer read at an entry, over any input array -/

/-- The first layer at (n, j): the dense layer on row n of its input. -/
theorem layer1_apply (X : (⟨S100000x64, .f32⟩ : BufTy).Contents (Elt Ideal)) (Win : (⟨S256x64, .f32⟩ : BufTy).Contents (Elt Ideal))
    (bin : (⟨S256, .f32⟩ : BufTy).Contents (Elt Ideal)) (n : Fin 100000) (j : Fin 256) :
    addf (F := Ideal) (Host.dotGeneral (φ₁ := .f32) (φ₂ := .f32) dot_S100000x64_S64x256_S100000x256_1_0_0_1_n_n none X (transpose S64x256 [1, 0] Win transposes_S256x64_S64x256_1_0))
        (broadcastInDim S100000x256 ![0, 1] bcast_S1x256_S100000x256_0_1 (broadcastInDim S1x256 ![1] bcast_S256_S1x256_1 bin)) (ix2 n j)
      = lin (fun j c => Win (ix2 j c)) (fun j => bin (ix1 j)) (fun c => X (ix2 n c)) j := by
  rw [dot1_eq]
  exact hostDense_apply none X Win bin transposes_S256x64_S64x256_1_0 bcast_S256_S1x256_1 bcast_S1x256_S100000x256_0_1 n j

/-- The second layer at (n, j). -/
theorem layer2_apply (X : (⟨S100000x256, .f32⟩ : BufTy).Contents (Elt Ideal)) (Wh : (⟨S256x256, .f32⟩ : BufTy).Contents (Elt Ideal))
    (bh : (⟨S256, .f32⟩ : BufTy).Contents (Elt Ideal)) (n : Fin 100000) (j : Fin 256) :
    addf (F := Ideal) (Host.dotGeneral (φ₁ := .f32) (φ₂ := .f32) dot_S100000x256_S256x256_S100000x256_1_0_0_1_n_n none X (transpose S256x256 [1, 0] Wh transposes_S256x256_S256x256_1_0))
        (broadcastInDim S100000x256 ![0, 1] bcast_S1x256_S100000x256_0_1 (broadcastInDim S1x256 ![1] bcast_S256_S1x256_1 bh)) (ix2 n j)
      = lin (fun j c => Wh (ix2 j c)) (fun j => bh (ix1 j)) (fun c => X (ix2 n c)) j := by
  rw [dot2_eq]
  exact hostDense_apply none X Wh bh transposes_S256x256_S256x256_1_0 bcast_S256_S1x256_1 bcast_S1x256_S100000x256_0_1 n j

/-- The third layer at (n, j). -/
theorem layer3_apply (X : (⟨S100000x256, .f32⟩ : BufTy).Contents (Elt Ideal)) (Wout : (⟨S64x256, .f32⟩ : BufTy).Contents (Elt Ideal))
    (bout : (⟨S64, .f32⟩ : BufTy).Contents (Elt Ideal)) (n : Fin 100000) (j : Fin 64) :
    addf (F := Ideal) (Host.dotGeneral (φ₁ := .f32) (φ₂ := .f32) dot_S100000x256_S256x64_S100000x64_1_0_0_1_n_n none X (transpose S256x64 [1, 0] Wout transposes_S64x256_S256x64_1_0))
        (broadcastInDim S100000x64 ![0, 1] bcast_S1x64_S100000x64_0_1 (broadcastInDim S1x64 ![1] bcast_S64_S1x64_1 bout)) (ix2 n j)
      = lin (fun j c => Wout (ix2 j c)) (fun j => bout (ix1 j)) (fun c => X (ix2 n c)) j := by
  rw [dot3_eq]
  exact hostDense_apply none X Wout bout transposes_S64x256_S256x64_1_0 bcast_S64_S1x64_1 bcast_S1x64_S100000x64_0_1 n j

/-! ## ELU on a whole array, read at an entry -/

/-- The host's ELU on the whole array is ELU at every entry. -/
theorem eluH_apply (x : (⟨S100000x256, .f32⟩ : BufTy).Contents (Elt Ideal)) (i : S100000x256.Idx) :
    eluH (F := Ideal) x i = elu (x i) :=
  (show eluH (F := Ideal) x i = eluHost (x i) from rfl).trans (eluHost_eq (x i))

/-! ## The two arrays side by side, read at an entry -/

/-- Row n of `feat` and `msg` side by side is row n of `feat` followed by row n of `msg`. -/
theorem concat_apply (feat msg : (⟨S100000x32, .f32⟩ : BufTy).Contents (Elt Ideal)) (n : Fin 100000) (a : Fin 64) :
    concatenate S100000x64 1 [⟨S100000x32, feat⟩, ⟨S100000x32, msg⟩] concatenates_S100000x32_S100000x32_S100000x64_d1 (ix2 n a)
      = cat (fun a => feat (ix2 n a)) (fun a => msg (ix2 n a)) a := by
  unfold cat
  by_cases h : a.val < 32
  · rw [dif_pos h]
    refine concatenate_pair_apply_left (1 : Fin S100000x64.rank) feat msg _ (ix2 n a) rfl (ix2 n ⟨a.val, h⟩) ?_
    intro b
    match b with
    | ⟨0, _⟩ => rfl
    | ⟨1, _⟩ => rfl
  · rw [dif_neg h]
    refine concatenate_pair_apply_right (1 : Fin S100000x64.rank) feat msg _ (ix2 n a) rfl rfl
      (ix2 n ⟨a.val - 32, by have := a.isLt; omega⟩) ?_ ?_
    · intro b hb
      match b, hb with
      | ⟨0, _⟩, _ => rfl
      | ⟨1, _⟩, hb => exact absurd rfl hb
    · show a.val - 32 + 32 = a.val
      omega

/-- Entry (n, j) of the reference's result is the three layers on row n of `feat` followed by row n of `msg`. -/
theorem tail_apply (feat msg : (⟨S100000x32, .f32⟩ : BufTy).Contents (Elt Ideal)) (Win : (⟨S256x64, .f32⟩ : BufTy).Contents (Elt Ideal))
    (bin : (⟨S256, .f32⟩ : BufTy).Contents (Elt Ideal)) (Wh : (⟨S256x256, .f32⟩ : BufTy).Contents (Elt Ideal))
    (bh : (⟨S256, .f32⟩ : BufTy).Contents (Elt Ideal)) (Wout : (⟨S64x256, .f32⟩ : BufTy).Contents (Elt Ideal))
    (bout : (⟨S64, .f32⟩ : BufTy).Contents (Elt Ideal)) (n : Fin 100000) (j : Fin 64) :
    tail (F := Ideal) feat msg Win bin Wh bh Wout bout (ix2 n j)
      = mlp Win bin Wh bh Wout bout (fun a => feat (ix2 n a)) (fun a => msg (ix2 n a)) j := by
  unfold tail mlp
  rw [layer3_apply]
  congr 1
  funext c
  rw [eluH_apply, layer2_apply]
  congr 2
  funext c'
  rw [eluH_apply, layer1_apply]
  congr 2
  funext a
  exact concat_apply feat msg n a

end Cert.RefSide

end
-- ==== Proof.lean ====
/-
  A three-layer network with ELU over the rows of a graph's node features, each row joined with the row of
  messages aggregated over the node's incoming edges (every edge carries its source node's row scaled by the edge's
  weight), computed two ways: by a kernel that takes 2000 node rows per grid point, keeps every weight resident,
  and splits the first layer into the part that multiplies a node's own row and the part that multiplies its
  aggregated row; and by the reference, which concatenates the two rows and applies the layers to the whole array.
  Both programs compute the aggregated messages by the same host operations, so that array is carried as one
  function of the arguments and never opened.  After it, entry (n, j) of either result depends on row n only and is
  `∑ h₂[c] · W₃[j, c] + b₃[j]` with `h₂ = ELU (h₁ · W₂ᵀ + b₂)`, `h₁ = ELU ([x ‖ g] · W₁ᵀ + b₁)`.  The two
  differ in the order the first layer's 64 products are added (two sums of 32 against one of 64), in how ELU's
  second branch is spelt (`eˣ − 1` against `1 · expm1` of a guarded argument), in where the weights are transposed,
  and in changes of float format that are the identity on extended reals.  None of this needs the inputs finite:
  addition of extended reals is commutative and associative, `0 + x = x` and `1 · x = x`.
-/
import proofs.«122095_j23802708755058_1_alg».proof.Defs
import proofs.«122095_j23802708755058_1_alg».proof.Proof.Gen.Kernel
import proofs.«122095_j23802708755058_1_alg».proof.Proof.Gen.Kernel.Skeleton
import proofs.«122095_j23802708755058_1_alg».proof.Proof.Gen.Kernel.Launch
import proofs.«122095_j23802708755058_1_alg».proof.Proof.Gen.Kernel.Points
import proofs.«122095_j23802708755058_1_alg».proof.Proof.Gen.Kernel.Frame
import proofs.«122095_j23802708755058_1_alg».proof.Proof.Gen.KernelIdeal
import proofs.«122095_j23802708755058_1_alg».proof.Proof.Gen.KernelIdeal.Skeleton
import proofs.«122095_j23802708755058_1_alg».proof.Proof.Gen.KernelIdeal.Launch
import proofs.«122095_j23802708755058_1_alg».proof.Proof.Gen.KernelIdeal.Points
import proofs.«122095_j23802708755058_1_alg».proof.Proof.Gen.KernelIdeal.Frame
import proofs.«122095_j23802708755058_1_alg».proof.Proof.Gen.KernelIdeal.Value
import proofs.«122095_j23802708755058_1_alg».proof.Proof.Gen.ReferenceIdeal
import proofs.«122095_j23802708755058_1_alg».proof.Proof.Gen.Pre_finite_inputs
import proofs.«122095_j23802708755058_1_alg».proof.Proof.KerValue
import proofs.«122095_j23802708755058_1_alg».proof.Proof.RefRun
import proofs.«122095_j23802708755058_1_alg».proof.Proof.RefTail
import Idealize.ShloMosaic.Adequacy
import Idealize.ShloMosaic.Init

noncomputable section

namespace Cert.Proof

open Idealize.ShloMosaic Idealize.ShloMosaic.TcCoe Idealize.SL.Sem Idealize.ShloMosaic.ValueIdx Cert.DenseRows

attribute [local irreducible] Host.gather Host.scatterAdd in
/-- The two programs aggregate the messages by the same operations with the same dimension numbers: one function. -/
theorem msg_eq (feat : (⟨Cert.KernelIdeal.S100000x32, .f32⟩ : BufTy).Contents (Elt Ideal))
    (ew : (⟨Cert.KernelIdeal.S1600000, .f32⟩ : BufTy).Contents (Elt Ideal))
    (ei : (⟨Cert.KernelIdeal.S2x1600000, .i32⟩ : BufTy).Contents (Elt Ideal)) :
    Cert.RefSide.msg (F := Ideal) feat ew ei = Cert.KerSide.msgK (F := Ideal) feat ew ei := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefSide.run (F := Ideal) m ρ)

/-- Both results are the network applied to every node row: the kernel's by its blocks, the reference's entry by
    entry; the arguments agree and the aggregated messages are one function of them. -/
theorem algebraic : Cert.algebraic_KernelIdeal_ReferenceIdeal := by
  intro m ρ m' ρ' _ hagree
  refine ⟨_, Cert.KerSide.run m ρ, ?_⟩
  refine (θ_run Cert.ReferenceIdeal.defs _ _).mono (fun _ h c => ⟨(h c).1.trans ?_, (h c).2⟩)
    (Cert.RefSide.run (F := Ideal) m' ρ')
  obtain ⟨a0, a1, a2, a3, a4, a5, a6, a7, a8⟩ := hagree c
  rw [a0, a1, a2, a3, a4, a5, a6, a7, a8, msg_eq]
  funext i
  obtain ⟨n, j, rfl⟩ : ∃ (n : Fin 100000) (j : Fin 64), i = ix2 n j := ⟨i 0, i 1, eq_ix2 i⟩
  rw [Cert.RefSide.tail_apply]
  exact (rowsMlp_apply _ _ _ _ _ _ _ _ n j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
